-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S3200000x3 : Shape := ⟨2, ![3200000, 3]⟩
abbrev S2x3200000 : Shape := ⟨2, ![2, 3200000]⟩
abbrev S5x50 : Shape := ⟨2, ![5, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S5x50 : S_.BroadcastsInDim S5x50 (![] : Fin 0 → Fin S5x50.rank)
  reducesTo_S5x50_S_d0_1 : S5x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part2 {F : FTy → Type} [FloatOps F] (main_arg2 : IVec S2x3200000 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294867296#32
  let main_v39 : IVec S2x3200000 32 := broadcastInDim S2x3200000 ![] bcast_S_S2x3200000 main_c_14
  let main_v40 : IVec S2x3200000 1 := cmpi .sge main_arg2 main_v39
  let main_c_15 : IVec S_ 32 := constantI S_ 32 100000#32
  let main_v41 : IVec S2x3200000 32 := broadcastInDim S2x3200000 ![] bcast_S_S2x3200000 main_c_15
  let main_v42 : IVec S2x3200000 1 := cmpi .slt main_arg2 main_v41
  let main_v43 : IVec S2x3200000 1 := andi main_v40 main_v42
  let main_c_16 : IVec S_ 1 := constantI S_ 1 1#1
  let main_v44 : IVec S_ 1 := (fun x v => Host.reduce IntOp.andi x v reducesTo_S2x3200000_S_d0_1 h_S_) main_v43 main_c_16
  let main_v45 : IVec S_ 1 := andi main_v38 main_v44
  main_v45

def fn_part1 {F : FTy → Type} [FloatOps F] (main_arg2 : IVec S2x3200000 32) (main_arg5 : FVec F S50x50 .f32) (main_arg6 : FVec F S50 .f32) (main_arg7 : FVec F S50x1 .f32) (main_arg8 : FVec F S1 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x50 .f32 := Host.absf main_arg5
  let main_cst_6 : FVec F S_ .f32 := constant S_ .f32 0x7F800000#32
  let main_v20 : FVec F S50x50 .f32 := broadcastInDim S50x50 ![] bcast_S_S50x50 main_cst_6
  let main_v21 : IVec S50x50 1 := cmpf .olt main_v19 main_v20
  let main_c_7 : IVec S_ 1 := constantI S_ 1 1#1
  let main_v22 : IVec S_ 1 := (fun x v => Host.reduce IntOp.andi x v reducesTo_S50x50_S_d0_1 h_S_) main_v21 main_c_7
  let main_v23 : IVec S_ 1 := andi main_v18 main_v22
  let main_v24 : FVec F S50 .f32 := Host.absf main_arg6
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50x1 .f32 := Host.absf main_arg7
  let main_cst_10 : FVec F S_ .f32 := constant S_ .f32 0x7F800000#32
  let main_v30 : FVec F S50x1 .f32 := broadcastInDim S50x1 ![] bcast_S_S50x1 main_cst_10
  let main_v31 : IVec S50x1 1 := cmpf .olt main_v29 main_v30
  let main_c_11 : IVec S_ 1 := constantI S_ 1 1#1
  let main_v32 : IVec S_ 1 := (fun x v => Host.reduce IntOp.andi x v reducesTo_S50x1_S_d0_1 h_S_) main_v31 main_c_11
  let main_v33 : IVec S_ 1 := andi main_v28 main_v32
  fn_part2 (F := F) main_arg2 main_arg8 main_v33

def fn {F : FTy → Type} [FloatOps F] (main_arg0 : FVec F S100000x1 .f32) (main_arg1 : FVec F S3200000x3 .f32) (main_arg2 : IVec S2x3200000 32) (main_arg3 : FVec F S5x50 .f32) (main_arg4 : FVec F S50 .f32) (main_arg5 : FVec F S50x50 .f32) (main_arg6 : FVec F S50 .f32) (main_arg7 : FVec F S50x1 .f32) (main_arg8 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S3200000x3 .f32 := Host.absf main_arg1
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S5x50 .f32 := Host.absf main_arg3
  let main_cst_2 : FVec F S_ .f32 := constant S_ .f32 0x7F800000#32
  let main_v10 : FVec F S5x50 .f32 := broadcastInDim S5x50 ![] bcast_S_S5x50 main_cst_2
  let main_v11 : IVec S5x50 1 := cmpf .olt main_v9 main_v10
  let main_c_3 : IVec S_ 1 := constantI S_ 1 1#1
  let main_v12 : IVec S_ 1 := (fun x v => Host.reduce IntOp.andi x v reducesTo_S5x50_S_d0_1 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg2 main_arg5 main_arg6 main_arg7 main_arg8 main_v13 main_v16
-- ==== Kernel.lean ====
abbrev S100000x1 : Shape := ⟨2, ![100000, 1]⟩
abbrev S3200000x3 : Shape := ⟨2, ![3200000, 3]⟩
abbrev S2x3200000 : Shape := ⟨2, ![2, 3200000]⟩
abbrev S5x50 : Shape := ⟨2, ![5, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x1 : Shape := ⟨2, ![1, 1]⟩
abbrev S3x3200000 : Shape := ⟨2, ![3, 3200000]⟩
abbrev S3211264 : Shape := ⟨1, ![3211264]⟩
abbrev S3x3211264 : Shape := ⟨2, ![3, 3211264]⟩
abbrev S1x3211264 : Shape := ⟨2, ![1, 3211264]⟩
abbrev S50x5 : Shape := ⟨2, ![50, 5]⟩
abbrev S50x3 : Shape := ⟨2, ![50, 3]⟩
abbrev S1x50 : Shape := ⟨2, ![1, 50]⟩
abbrev S1x32768 : Shape := ⟨2, ![1, 32768]⟩
abbrev S3x32768 : Shape := ⟨2, ![3, 32768]⟩
abbrev S50x32768 : Shape := ⟨2, ![50, 32768]⟩

abbrev nBuf : Space → Nat
  | .hbm => 82
  | .vmem => 16
  | .smem => 0
  | _ => 0

abbrev bufTy : (tb : Table) → Fin (tcTables nBuf tb) → BufTy
  | .hbm, ⟨0, _⟩ => ⟨S100000x1, .f32⟩
  | .hbm, ⟨1, _⟩ => ⟨S3200000x3, .f32⟩
  | .hbm, ⟨2, _⟩ => ⟨S2x3200000, .i32⟩
  | .hbm, ⟨3, _⟩ => ⟨S5x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x1, .f32⟩
  | .hbm, ⟨8, _⟩ => ⟨S1, .f32⟩
  | .hbm, ⟨9, _⟩ => ⟨S100000, .f32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S1, .i32⟩
  | .hbm, ⟨21, _⟩ => ⟨S_, .i32⟩
  | .hbm, ⟨22, _⟩ => ⟨S3200000x1, .i32⟩
  | .hbm, ⟨23, _⟩ => ⟨S3200000x1, .i1⟩
  | .hbm, ⟨24, _⟩ => ⟨S1x1, .i32⟩
  | .hbm, ⟨25, _⟩ => ⟨S3200000x1, .i32⟩
  | .hbm, ⟨26, _⟩ => ⟨S3200000x1, .i1⟩
  | .hbm, ⟨27, _⟩ => ⟨S3200000x1, .i1⟩
  | .hbm, ⟨28, _⟩ => ⟨S_, .i1⟩
  | .hbm, ⟨29, _⟩ => ⟨S3200000, .i1⟩
  | .hbm, ⟨30, _⟩ => ⟨S3200000, .f32⟩
  | .hbm, ⟨31, _⟩ => ⟨S_, .f32⟩
  | .hbm, ⟨32, _⟩ => ⟨S3200000, .f32⟩
  | .hbm, ⟨33, _⟩ => ⟨S3200000, .f32⟩
  | .hbm, ⟨34, _⟩ => ⟨S1x3200000, .i32⟩
  | .hbm, ⟨35, _⟩ => ⟨S3200000, .i32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S1, .i32⟩
  | .hbm, ⟨45, _⟩ => ⟨S_, .i32⟩
  | .hbm, ⟨46, _⟩ => ⟨S3200000x1, .i32⟩
  | .hbm, ⟨47, _⟩ => ⟨S3200000x1, .i1⟩
  | .hbm, ⟨48, _⟩ => ⟨S1x1, .i32⟩
  | .hbm, ⟨49, _⟩ => ⟨S3200000x1, .i32⟩
  | .hbm, ⟨50, _⟩ => ⟨S3200000x1, .i1⟩
  | .hbm, ⟨51, _⟩ => ⟨S3200000x1, .i1⟩
  | .hbm, ⟨52, _⟩ => ⟨S_, .i1⟩
  | .hbm, ⟨53, _⟩ => ⟨S3200000, .i1⟩
  | .hbm, ⟨54, _⟩ => ⟨S3200000, .f32⟩
  | .hbm, ⟨55, _⟩ => ⟨S_, .f32⟩
  | .hbm, ⟨56, _⟩ => ⟨S3200000, .f32⟩
  | .hbm, ⟨57, _⟩ => ⟨S3200000, .f32⟩
  | .hbm, ⟨58, _⟩ => ⟨S3x3200000, .f32⟩
  | .hbm, ⟨59, _⟩ => ⟨S_, .i32⟩
  | .hbm, ⟨60, _⟩ => ⟨S_, .f32⟩
  | .hbm, ⟨61, _⟩ => ⟨S3211264, .f32⟩
  | .hbm, ⟨62, _⟩ => ⟨S_, .i32⟩
  | .hbm, ⟨63, _⟩ => ⟨S_, .f32⟩
  | .hbm, ⟨64, _⟩ => ⟨S3211264, .f32⟩
  | .hbm, ⟨65, _⟩ => ⟨S_, .i32⟩
  | .hbm, ⟨66, _⟩ => ⟨S_, .f32⟩
  | .hbm, ⟨67, _⟩ => ⟨S3x3211264, .f32⟩
  | .hbm, ⟨68, _⟩ => ⟨S1x3211264, .f32⟩
  | .hbm, ⟨69, _⟩ => ⟨S1x3211264, .f32⟩
  | .hbm, ⟨70, _⟩ => ⟨S50x5, .f32⟩
  | .hbm, ⟨71, _⟩ => ⟨S50x1, .f32⟩
  | .hbm, ⟨72, _⟩ => ⟨S50x1, .f32⟩
  | .hbm, ⟨73, _⟩ => ⟨S50x3, .f32⟩
  | .hbm, ⟨74, _⟩ => ⟨S50x1, .f32⟩
  | .hbm, ⟨75, _⟩ => ⟨S50x50, .f32⟩
  | .hbm, ⟨76, _⟩ => ⟨S50x1, .f32⟩
  | .hbm, ⟨77, _⟩ => ⟨S1x50, .f32⟩
  | .hbm, ⟨78, _⟩ => ⟨S1x1, .f32⟩
  | .hbm, ⟨79, _⟩ => ⟨S1x3211264, .f32⟩
  | .hbm, ⟨80, _⟩ => ⟨S1x3200000, .f32⟩
  | .hbm, ⟨81, _⟩ => ⟨S3200000x1, .f32⟩
  | .local _ .vmem, ⟨0, _⟩ => ⟨S1x32768, .f32⟩
  | .local _ .vmem, ⟨1, _⟩ => ⟨S1x32768, .f32⟩
  | .local _ .vmem, ⟨2, _⟩ => ⟨S1x32768, .f32⟩
  | .local _ .vmem, ⟨3, _⟩ => ⟨S1x32768, .f32⟩
  | .local _ .vmem, ⟨4, _⟩ => ⟨S3x32768, .f32⟩
  | .local _ .vmem, ⟨5, _⟩ => ⟨S3x32768, .f32⟩
  | .local _ .vmem, ⟨6, _⟩ => ⟨S50x1, .f32⟩
  | .local _ .vmem, ⟨7, _⟩ => ⟨S50x1, .f32⟩
  | .local _ .vmem, ⟨8, _⟩ => ⟨S50x3, .f32⟩
  | .local _ .vmem, ⟨9, _⟩ => ⟨S50x1, .f32⟩
  | .local _ .vmem, ⟨10, _⟩ => ⟨S50x50, .f32⟩
  | .local _ .vmem, ⟨11, _⟩ => ⟨S50x1, .f32⟩
  | .local _ .vmem, ⟨12, _⟩ => ⟨S1x50, .f32⟩
  | .local _ .vmem, ⟨13, _⟩ => ⟨S1x1, .f32⟩
  | .local _ .vmem, ⟨14, _⟩ => ⟨S1x32768, .f32⟩
  | .local _ .vmem, ⟨15, _⟩ => ⟨S1x32768, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v6 : Ref sig .tc := ⟨.hbm, 57, rfl⟩
abbrev main_v7 : Ref sig .tc := ⟨.hbm, 58, rfl⟩
abbrev main_c : Ref sig .tc := ⟨.hbm, 59, rfl⟩
abbrev main_call2_v0 : Ref sig .tc := ⟨.hbm, 60, rfl⟩
abbrev main_v8 : Ref sig .tc := ⟨.hbm, 61, rfl⟩
abbrev main_c_0 : Ref sig .tc := ⟨.hbm, 62, rfl⟩
abbrev main_call3_v0 : Ref sig .tc := ⟨.hbm, 63, rfl⟩
abbrev main_v9 : Ref sig .tc := ⟨.hbm, 64, rfl⟩
abbrev main_c_1 : Ref sig .tc := ⟨.hbm, 65, rfl⟩
abbrev main_call4_v0 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S100000x1_S100000 : S100000x1.ShapeCasts S100000
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  slices_S2x3200000_S1x3200000_1_0 : S2x3200000.Slices ![1, 0] S1x3200000
  transposes_S3200000x3_S3x3200000_1_0 : S3200000x3.Transposes [1, 0] S3x3200000
  pads_S3200000_S3211264_0112640 : S3200000.Pads (![0] : Fin 1 → Nat) ![11264] ![0] S3211264
  pads_S3x3200000_S3x3211264_000_0112640 : S3x3200000.Pads (![0, 0] : Fin 2 → Nat) ![0, 11264] ![0, 0] S3x3211264
  shapeCasts_S3211264_S1x3211264 : S3211264.ShapeCasts S1x3211264
  transposes_S5x50_S50x5_1_0 : S5x50.Transposes [1, 0] S50x5
  slices_S50x5_S50x1_0_0 : S50x5.Slices ![0, 0] S50x1
  slices_S50x5_S50x1_0_1 : S50x5.Slices ![0, 1] S50x1
  slices_S50x5_S50x3_0_2 : S50x5.Slices ![0, 2] S50x3
  shapeCasts_S50_S50x1 : S50.ShapeCasts S50x1
  transposes_S50x50_S50x50_1_0 : S50x50.Transposes [1, 0] S50x50
  transposes_S50x1_S1x50_1_0 : S50x1.Transposes [1, 0] S1x50
  shapeCasts_S1_S1x1 : S1.ShapeCasts S1x1
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S50x3_S50x3_0_0 : ∀ a, (![0, 0] : Fin 2 → Nat) a + S50x3.size a ≤ S50x3.size a
  h_S50x3 : 0 < S50x3.numel
  shapeCasts_S50x3_S50x3 : S50x3.ShapeCasts S50x3
  broadcasts_S50x1_S50x32768 : S50x1.Broadcasts S50x32768
  broadcasts_S1x32768_S50x32768 : S1x32768.Broadcasts S50x32768
  slices_S50x3_o0_0_S50x1 : S50x3.Slices ![0, 0] S50x1
  slices_S3x32768_o0_0_S1x32768 : S3x32768.Slices ![0, 0] S1x32768
  slices_S50x3_o0_1_S50x1 : S50x3.Slices ![0, 1] S50x1
  slices_S3x32768_o1_0_S1x32768 : S3x32768.Slices ![1, 0] S1x32768
  slices_S50x3_o0_2_S50x1 : S50x3.Slices ![0, 2] S50x1
  slices_S3x32768_o2_0_S1x32768 : S3x32768.Slices ![2, 0] S1x32768
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32768 : S1x1.Broadcasts S1x32768
  slices_S1x3211264_S1x3200000_0_0 : S1x3211264.Slices ![0, 0] S1x3200000
  shapeCasts_S1x3200000_S3200000x1 : S1x3200000.ShapeCasts S3200000x1
  gather_S100000_S3200000x1_S3200000_n_0_n_n_0_1_1_wf : GatherDims.WF S100000 S3200000x1 S3200000 [] [0] [] [0] [] 1 ![1]
  dot_S50x50_S50x32768_S50x32768_1_0_0_1_n_n_wf : DotDims.WF S50x50 S50x32768 S50x32768 [1] [0] [0] [1] [] []
  dot_S1x50_S50x32768_S1x32768_1_0_0_1_n_n_wf : DotDims.WF S1x50 S50x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x3211264.size a
  hwx0_0 : ∀ i : grid0.Coords, EltTy.bits .f32 = 32 ∨ (Rect.block (s := S1x3211264) S1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x3211264.size a
  hwx0_1 : ∀ i : grid0.Coords, EltTy.bits .f32 = 32 ∨ (Rect.block (s := S1x3211264) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32768.size a ≤ S3x3211264.size a
  hwx0_2 : ∀ i : grid0.Coords, EltTy.bits .f32 = 32 ∨ (Rect.block (s := S3x3211264) S3x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x1.size a ≤ S50x1.size a
  hwx0_3 : ∀ i : grid0.Coords, EltTy.bits .f32 = 32 ∨ (Rect.block (s := S50x1) S50x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x1.size a ≤ S50x1.size a
  hwx0_4 : ∀ i : grid0.Coords, EltTy.bits .f32 = 32 ∨ (Rect.block (s := S50x1) S50x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x3.size a ≤ S50x3.size a
  hwx0_5 : ∀ i : grid0.Coords, EltTy.bits .f32 = 32 ∨ (Rect.block (s := S50x3) S50x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50x1.size a ≤ S50x1.size a
  hwx0_6 : ∀ i : grid0.Coords, EltTy.bits .f32 = 32 ∨ (Rect.block (s := S50x1) S50x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x50.size a ≤ S50x50.size a
  hwx0_7 : ∀ i : grid0.Coords, EltTy.bits .f32 = 32 ∨ (Rect.block (s := S50x50) S50x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x1.size a ≤ S50x1.size a
  hwx0_8 : ∀ i : grid0.Coords, EltTy.bits .f32 = 32 ∨ (Rect.block (s := S50x1) S50x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x50.size a ≤ S1x50.size a
  hwx0_9 : ∀ i : grid0.Coords, EltTy.bits .f32 = 32 ∨ (Rect.block (s := S1x50) S1x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32768.size a ≤ S1x3211264.size a
  hwx0_11 : ∀ i : grid0.Coords, EltTy.bits .f32 = 32 ∨ (Rect.block (s := S1x3211264) S1x32768.size (cc0_transform_11 i) (hinb0_11 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S50x50_S50x32768_S50x32768_1_0_0_1_n_n : DotDims S50x50 S50x32768 S50x32768 where
  lhsContracting := [1]
  rhsContracting := [0]
  lhsNonContracting := [0]
  rhsNonContracting := [1]
  lhsBatch := []
  rhsBatch := []
  wf := dot_S50x50_S50x32768_S50x32768_1_0_0_1_n_n_wf
def dot_S1x50_S50x32768_S1x32768_1_0_0_1_n_n : DotDims S1x50 S50x32768 S1x32768 where
  lhsContracting := [1]
  rhsContracting := [0]
  lhsNonContracting := [0]
  rhsNonContracting := [1]
  lhsBatch := []
  rhsBatch := []
  wf := dot_S1x50_S50x32768_S1x32768_1_0_0_1_n_n_wf

abbrev win0_0 : Pipeline.Window sig grid0 :=
  Pipeline.Window.ofSpec (Memref.whole main_v11) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S3x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S50x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S50x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S50x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S50x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S50x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S50x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S1x32768.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x1 : Shape := ⟨2, ![100000, 1]⟩
abbrev S3200000x3 : Shape := ⟨2, ![3200000, 3]⟩
abbrev S2x3200000 : Shape := ⟨2, ![2, 3200000]⟩
abbrev S5x50 : Shape := ⟨2, ![5, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x5 : Shape := ⟨2, ![3200000, 5]⟩
abbrev S3200000x50 : Shape := ⟨2, ![3200000, 50]⟩
abbrev S1x50 : Shape := ⟨2, ![1, 50]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S3200000x3, .f32⟩
  | .hbm, ⟨2, _⟩ => ⟨S2x3200000, .i32⟩
  | .hbm, ⟨3, _⟩ => ⟨S5x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x1, .f32⟩
  | .hbm, ⟨20, _⟩ => ⟨S1x3200000, .i32⟩
  | .hbm, ⟨21, _⟩ => ⟨S3200000, .i32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x1, .f32⟩
  | .hbm, ⟨31, _⟩ => ⟨S3200000x5, .f32⟩
  | .hbm, ⟨32, _⟩ => ⟨S3200000x50, .f32⟩
  | .hbm, ⟨33, _⟩ => ⟨S1x50, .f32⟩
  | .hbm, ⟨34, _⟩ => ⟨S3200000x50, .f32⟩
  | .hbm, ⟨35, _⟩ => ⟨S3200000x50, .f32⟩
  | .hbm, ⟨36, _⟩ => ⟨S_, .f32⟩
  | .hbm, ⟨37, _⟩ => ⟨S3200000x50, .f32⟩
  | .hbm, ⟨38, _⟩ => ⟨S3200000x50, .f32⟩
  | .hbm, ⟨39, _⟩ => ⟨S3200000x50, .f32⟩
  | .hbm, ⟨40, _⟩ => ⟨S1x50, .f32⟩
  | .hbm, ⟨41, _⟩ => ⟨S3200000x50, .f32⟩
  | .hbm, ⟨42, _⟩ => ⟨S3200000x50, .f32⟩
  | .hbm, ⟨43, _⟩ => ⟨S_, .f32⟩
  | .hbm, ⟨44, _⟩ => ⟨S3200000x50, .f32⟩
  | .hbm, ⟨45, _⟩ => ⟨S3200000x50, .f32⟩
  | .hbm, ⟨46, _⟩ => ⟨S3200000x1, .f32⟩
  | .hbm, ⟨47, _⟩ => ⟨S1x1, .f32⟩
  | .hbm, ⟨48, _⟩ => ⟨S3200000x1, .f32⟩
  | .hbm, ⟨49, _⟩ => ⟨S3200000x1, .f32⟩
  | .hbm, ⟨50, _⟩ => ⟨S3200000x1, .f32⟩
  | .hbm, ⟨51, _⟩ => ⟨S3200000x1, .f32⟩
  | .hbm, ⟨52, _⟩ => ⟨S_, .f32⟩
  | .hbm, ⟨53, _⟩ => ⟨S3200000x1, .f32⟩
  | .hbm, ⟨54, _⟩ => ⟨S3200000x1, .f32⟩
  | .hbm, ⟨55, _⟩ => ⟨S_, .f32⟩
  | .hbm, ⟨56, _⟩ => ⟨S3200000x1, .f32⟩
  | .hbm, ⟨57, _⟩ => ⟨S3200000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  concatenates_S3200000x1_S3200000x1_S3200000x3_S3200000x5_d1 : Shape.Concatenates [S3200000x1, S3200000x1, S3200000x3] S3200000x5 1
  bcast_S50_S1x50_1 : S50.BroadcastsInDim S1x50 (![1] : Fin 1 → Fin S1x50.rank)
  bcast_S1x50_S3200000x50_0_1 : S1x50.BroadcastsInDim S3200000x50 (![0, 1] : Fin 2 → Fin S3200000x50.rank)
  bcast_S_S3200000x50 : S_.BroadcastsInDim S3200000x50 (![] : Fin 0 → Fin S3200000x50.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  gather_S100000x1_S3200000x1_S3200000x1_1_0_n_n_0_1_11_wf : GatherDims.WF S100000x1 S3200000x1 S3200000x1 [1] [0] [] [0] [] 1 ![1, 1]
  dot_S3200000x5_S5x50_S3200000x50_1_0_0_1_n_n_wf : DotDims.WF S3200000x5 S5x50 S3200000x50 [1] [0] [0] [1] [] []
  dot_S3200000x50_S50x50_S3200000x50_1_0_0_1_n_n_wf : DotDims.WF S3200000x50 S50x50 S3200000x50 [1] [0] [0] [1] [] []
  dot_S3200000x50_S50x1_S3200000x1_1_0_0_1_n_n_wf : DotDims.WF S3200000x50 S50x1 S3200000x1 [1] [0] [0] [1] [] []

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def dot_S3200000x5_S5x50_S3200000x50_1_0_0_1_n_n : DotDims S3200000x5 S5x50 S3200000x50 where
  lhsContracting := [1]
  rhsContracting := [0]
  lhsNonContracting := [0]
  rhsNonContracting := [1]
  lhsBatch := []
  rhsBatch := []
  wf := dot_S3200000x5_S5x50_S3200000x50_1_0_0_1_n_n_wf
def dot_S3200000x50_S50x50_S3200000x50_1_0_0_1_n_n : DotDims S3200000x50 S50x50 S3200000x50 where
  lhsContracting := [1]
  rhsContracting := [0]
  lhsNonContracting := [0]
  rhsNonContracting := [1]
  lhsBatch := []
  rhsBatch := []
  wf := dot_S3200000x50_S50x50_S3200000x50_1_0_0_1_n_n_wf
def dot_S3200000x50_S50x1_S3200000x1_1_0_0_1_n_n : DotDims S3200000x50 S50x1 S3200000x1 where
  lhsContracting := [1]
  rhsContracting := [0]
  lhsNonContracting := [0]
  rhsNonContracting := [1]
  lhsBatch := []
  rhsBatch := []
  wf := dot_S3200000x50_S50x1_S3200000x1_1_0_0_1_n_n_wf

class Facts : Prop extends Facts₀ where

variable [Facts]
-- ==== Proof.Spec.lean ====
/-
  The mathematics both programs compute for ONE edge, as a function of the edge's five features
  (source node value, target node value, three edge attributes) and of the weights:
  a three-layer perceptron  logistic (W3ᵀ · relu (W2ᵀ · relu (W1ᵀ · f + b1) + b2) + b3)  on the extended reals.

  It is written twice. `outR` is the arrangement of the plain formulation: every layer is the row vector
  times the weight matrix, `∑ i, f i * W i j`, plus the bias. `outK` is the arrangement of the tiled
  formulation, which works on the transposed problem: the first layer is five rank-one updates added
  one after the other, with the bias joining after the second, and the later layers multiply from the
  left, `∑ k, W k j * h k`. The two differ only in the order of the summands and of the factors, and
  addition and multiplication of extended reals are commutative and associative with no side condition,
  so the two arrangements agree on ALL extended reals: no finiteness is used.
-/
import Idealize.ShloMosaic.PureOps.Ideal
import Idealize.ShloMosaic.Lib.ValueIdx
import Mathlib.Algebra.BigOperators.Fin

noncomputable section

namespace Cert.MlpSpec

open Idealize.ShloMosaic Idealize.ShloMosaic.ValueIdx

/-- One dense layer with relu, the row vector `f` times `W` plus `b`. -/
def layerR {n k : ℕ} (W : Fin n → Fin k → EReal) (b : Fin k → EReal) (f : Fin n → EReal) (j : Fin k) : EReal :=
  max ((∑ i, f i * W i j) + b j) 0

/-- The same layer with the weight on the left of each product. -/
def layerK {n k : ℕ} (W : Fin n → Fin k → EReal) (b : Fin k → EReal) (f : Fin n → EReal) (j : Fin k) : EReal :=
  max ((∑ i, W i j * f i) + b j) 0

/-- The first layer as five rank-one updates: the two node terms, then the bias, then the three
    attribute terms. -/
def layer1K (W : Fin 5 → Fin 50 → EReal) (b : Fin 50 → EReal) (f : Fin 5 → EReal) (j : Fin 50) : EReal :=
  max (((((W 0 j * f 0 + W 1 j * f 1) + b j) + W 2 j * f 2) + W 3 j * f 3) + W 4 j * f 4) 0

/-- The perceptron, every layer vector times matrix. -/
def outR (W1 : Fin 5 → Fin 50 → EReal) (b1 : Fin 50 → EReal) (W2 : Fin 50 → Fin 50 → EReal) (b2 : Fin 50 → EReal)
    (W3 : Fin 50 → Fin 1 → EReal) (b3 : Fin 1 → EReal) (f : Fin 5 → EReal) : EReal :=
  Ideal.logistic ((∑ k, layerR W2 b2 (layerR W1 b1 f) k * W3 k 0) + b3 0)

/-- The perceptron in the transposed arrangement. -/
def outK (W1 : Fin 5 → Fin 50 → EReal) (b1 : Fin 50 → EReal) (W2 : Fin 50 → Fin 50 → EReal) (b2 : Fin 50 → EReal)
    (W3 : Fin 50 → Fin 1 → EReal) (b3 : Fin 1 → EReal) (f : Fin 5 → EReal) : EReal :=
  Ideal.logistic ((∑ k, W3 k 0 * layerK W2 b2 (layer1K W1 b1 f) k) + b3 0)

theorem layerK_eq_layerR {n k : ℕ} (W : Fin n → Fin k → EReal) (b : Fin k → EReal) (f : Fin n → EReal) :
    layerK W b f = layerR W b f := by
  funext j
  unfold layerK layerR
  congr 2
  exact Finset.sum_congr rfl fun i _ => mul_comm _ _

/-- Five summands and a bias, in either order. -/
theorem layer1K_eq_layerR (W : Fin 5 → Fin 50 → EReal) (b : Fin 50 → EReal) (f : Fin 5 → EReal) :
    layer1K W b f = layerR W b f := by
  funext j
  unfold layer1K layerR
  rw [Fin.sum_univ_five]
  congr 1
  simp only [mul_comm (W _ j)]
  abel

/-- The two arrangements are one function, on all extended reals. -/
theorem outK_eq_outR (W1 : Fin 5 → Fin 50 → EReal) (b1 : Fin 50 → EReal) (W2 : Fin 50 → Fin 50 → EReal) (b2 : Fin 50 → EReal)
    (W3 : Fin 50 → Fin 1 → EReal) (b3 : Fin 1 → EReal) (f : Fin 5 → EReal) :
    outK W1 b1 W2 b2 W3 b3 f = outR W1 b1 W2 b2 W3 b3 f := by
  unfold outK outR
  rw [layer1K_eq_layerR, layerK_eq_layerR]
  congr 2
  exact Finset.sum_congr rfl fun k _ => mul_comm _ _

/-! ## The whole result, as a function of the nine argument arrays

Edge `e` reads the node table at its two endpoints. An endpoint index `v` is a signed 32-bit word; a
negative one counts from the back of the table (`v + 100000`), and the position read is that wrapped
index clamped into the table, `0 … 99999`. The edge's five features are the two node values read
there and the edge's three attributes; the result at `(e, 0)` is the perceptron of them. -/

/-- A negative index counts from the back of the 100000 nodes. -/
def wrap (v : BitVec 32) : BitVec 32 :=
  Scalar.select (IntOp.cmpi .slt v 0#32) (IntOp.addi v 100000#32) v

/-- The table position an index reads: wrapped, read signed, clamped into `0 … 99999`. -/
def nodeOf (v : BitVec 32) : Fin 100000 := ⟨min (wrap v).toInt.toNat 99999, by omega⟩

/-- The five features of edge `e`: source node value, target node value, three edge attributes. -/
def feat (x : FVec Ideal ⟨2, ![100000, 1]⟩ .f32) (ea : FVec Ideal ⟨2, ![3200000, 3]⟩ .f32)
    (ei : IVec ⟨2, ![2, 3200000]⟩ 32) (e : Fin 3200000) : Fin 5 → EReal := fun k =>
  match k with
  | ⟨0, _⟩ => x (ix2 (nodeOf (ei (ix2 0 e))) 0)
  | ⟨1, _⟩ => x (ix2 (nodeOf (ei (ix2 1 e))) 0)
  | ⟨2, _⟩ => ea (ix2 e 0)
  | ⟨3, _⟩ => ea (ix2 e 1)
  | ⟨4, _⟩ => ea (ix2 e 2)

/-- The result array: at `(e, 0)` the perceptron of edge `e`'s features. -/
def result (x : FVec Ideal ⟨2, ![100000, 1]⟩ .f32) (ea : FVec Ideal ⟨2, ![3200000, 3]⟩ .f32)
    (ei : IVec ⟨2, ![2, 3200000]⟩ 32) (W1 : FVec Ideal ⟨2, ![5, 50]⟩ .f32) (b1 : FVec Ideal ⟨1, ![50]⟩ .f32)
    (W2 : FVec Ideal ⟨2, ![50, 50]⟩ .f32) (b2 : FVec Ideal ⟨1, ![50]⟩ .f32) (W3 : FVec Ideal ⟨2, ![50, 1]⟩ .f32)
    (b3 : FVec Ideal ⟨1, ![1]⟩ .f32) : FVec Ideal ⟨2, ![3200000, 1]⟩ .f32 := fun i =>
  outR (fun k j => W1 (ix2 k j)) (fun j => b1 (ix1 j)) (fun k j => W2 (ix2 k j)) (fun j => b2 (ix1 j))
    (fun k j => W3 (ix2 k j)) (fun j => b3 (ix1 j)) (feat x ea ei (i 0))

end Cert.MlpSpec

end
-- ==== Proof.PreRange.lean ====
/-
  The index range, read out of the precondition, and what it gives the gathers.

  The precondition's last conjunct says that every entry `v` of the edge-index array satisfies
  `-100000 ≤ v < 100000` as a signed integer: an index into an axis of extent 100000, counted from the
  front (`0 ≤ v`) or from the back (`v < 0`, meaning `v + 100000`). Both programs first wrap a negative
  index by adding 100000. For `v` in that range the wrapped index lies in `[0, 99999]` (the sum does not
  overflow: it is below 100000), so the bounds test that guards one of the two gathers succeeds at every
  position, and its fill value is never selected.
-/
import proofs.«413811_j63282048139713_3_alg».proof.Pre_finite_inputs
import Idealize.ShloMosaic.Lib.ReduceAll
import Idealize.ShloMosaic.Lib.StableHlo.Predicate
import Idealize.ShloMosaic.Lib.ValueIdx
import proofs.«413811_j63282048139713_3_alg».proof.Proof.Spec

noncomputable section

namespace Cert.PreRange

open Idealize.ShloMosaic Cert.Pre_finite_inputs Cert.MlpSpec

variable {F : FTy → Type} [FloatOps F] [Cert.Pre_finite_inputs.Facts]

instance : Subsingleton S_.Idx := ⟨fun a b => funext fun d => d.elim0⟩

/-- A signed index in `[-100000, 100000)`. -/
def InRange (v : BitVec 32) : Prop := (-100000 : Int) ≤ v.toInt ∧ v.toInt < 100000

/-- The precondition holds only if every entry of the index array is in range. -/
theorem inRange_of_pre (a0 : FVec F S100000x1 .f32) (a1 : FVec F S3200000x3 .f32) (a2 : IVec S2x3200000 32)
    (a3 : FVec F S5x50 .f32) (a4 : FVec F S50 .f32) (a5 : FVec F S50x50 .f32) (a6 : FVec F S50 .f32)
    (a7 : FVec F S50x1 .f32) (a8 : FVec F S1 .f32)
    (h : fn (F := F) a0 a1 a2 a3 a4 a5 a6 a7 a8 = fun _ => 1#1) (i : S2x3200000.Idx) : InRange (a2 i) := by
  have h0 := congrFun h ValueIdx.ix0
  dsimp only [fn, fn_part1, fn_part2] at h0
  have h1 := (IntOp.andi_eq_one.1 h0).2
  have h2 := Host.reduce_andi_all _ _ _ _ _ h1 i
  obtain ⟨hge, hlt⟩ := IntOp.andi_eq_one.1 h2
  have hge' := IntOp.cmpi_sge.1 hge
  have hlt' := IntOp.cmpi_slt.1 hlt
  rw [StableHlo.Predicate.bcast_scalar _ (by decide)] at hge' hlt'
  change (4294867296#32 : BitVec 32).toInt ≤ _ at hge'
  change _ < (100000#32 : BitVec 32).toInt at hlt'
  have e1 : (4294867296#32 : BitVec 32).toInt = -100000 := by decide
  have e2 : (100000#32 : BitVec 32).toInt = 100000 := by decide
  rw [e1] at hge'; rw [e2] at hlt'
  exact ⟨hge', hlt'⟩

/-- The wrapped index of an index in range is a position `0 … 99999`. -/
theorem wrap_bounds {v : BitVec 32} (hv : InRange v) : 0 ≤ (wrap v).toInt ∧ (wrap v).toInt ≤ 99999 := by
  obtain ⟨hlo, hhi⟩ := hv
  unfold wrap
  by_cases hneg : v.toInt < 0
  · have hc : IntOp.cmpi .slt v 0#32 = 1#1 := IntOp.cmpi_slt.2 (by simpa using hneg)
    rw [hc, ValueIdx.select_one]
    have hadd : (IntOp.addi v 100000#32).toInt = v.toInt + 100000 := by
      show (v + 100000#32).toInt = _
      rw [BitVec.toInt_add, Int.bmod_def]
      have : (100000#32 : BitVec 32).toInt = 100000 := by decide
      rw [this]
      split <;> omega
    rw [hadd]; omega
  · have hc : IntOp.cmpi .slt v 0#32 = 0#1 :=
      ValueIdx.eq_zero_of_ne_one fun h1 => hneg (by simpa using IntOp.cmpi_slt.1 h1)
    rw [hc, ValueIdx.select_zero]
    omega

/-- So both bounds tests of the guarded gather come out true. -/
theorem wrap_tests {v : BitVec 32} (hv : InRange v) :
    IntOp.cmpi .sge (wrap v) 0#32 = 1#1 ∧ IntOp.cmpi .sle (wrap v) 99999#32 = 1#1 := by
  obtain ⟨h0, h1⟩ := wrap_bounds hv
  refine ⟨IntOp.cmpi_sge.2 (by simpa using h0), IntOp.cmpi_sle.2 ?_⟩
  have : (99999#32 : BitVec 32).toInt = 99999 := by decide
  rw [this]; exact h1

end Cert.PreRange

end
-- ==== Proof.RefValue.lean ====
/-
  The plain formulation, read at an index: its result array is `MlpSpec.result` of the nine arguments.
-/
import proofs.«413811_j63282048139713_3_alg».proof.Proof.Gen.ReferenceIdeal.Run
import proofs.«413811_j63282048139713_3_alg».proof.Proof.Gen.ReferenceIdeal.Read
import proofs.«413811_j63282048139713_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The start indices: a row of the edge-index array, wrapped

Each gather's start indices are one row of the edge-index array — cut out by a slice, flattened by a
reshape, a negative entry moved up by the table's extent, and laid out again as one column. Read at
`(e, 0)` that is `MlpSpec.wrap` of the row's entry `e`. -/

/-- Through the column layout, the reshape and the slice, position `(e, 0)` reads row `0`, column `e`. -/
theorem idx_row0 (j : S3200000x1.Idx) : idx_main_v0 (idx_main_v1 (idx_main_v7 j)) = ix2 0 (j 0) := by
  funext a
  refine Fin.ext ?_
  match a with
  | ⟨0, _⟩ => rfl
  | ⟨1, _⟩ =>
    show (j 0).val % 3200000 = (j 0).val
    exact Nat.mod_eq_of_lt (j 0).isLt

/-- The same for the second gather: row `1`, column `e`. -/
theorem idx_row1 (j : S3200000x1.Idx) : idx_main_v9 (idx_main_v10 (idx_main_v16 j)) = ix2 1 (j 0) := by
  funext a
  refine Fin.ext ?_
  match a with
  | ⟨0, _⟩ => rfl
  | ⟨1, _⟩ =>
    show (j 0).val % 3200000 = (j 0).val
    exact Nat.mod_eq_of_lt (j 0).isLt

/-- The first gather's start index at `j` is the wrapped source endpoint of edge `j 0`. -/
theorem start_v7 (x2 : IVec S2x3200000 32) (j : S3200000x1.Idx) :
    val_main_v7 (F := Ideal) x2 j = Cert.MlpSpec.wrap (x2 (ix2 0 (j 0))) := by
  rw [val_main_v7_apply, val_main_v6_apply, val_main_v3_apply, val_main_v5_apply, val_main_v1_apply,
    val_main_v0_apply, val_main_v2_apply, val_main_c_apply, val_main_v4_apply, val_main_c_0_apply, idx_row0]
  rfl

/-- The second gather's start index at `j` is the wrapped target endpoint of edge `j 0`. -/
theorem start_v16 (x2 : IVec S2x3200000 32) (j : S3200000x1.Idx) :
    val_main_v16 (F := Ideal) x2 j = Cert.MlpSpec.wrap (x2 (ix2 1 (j 0))) := by
  rw [val_main_v16_apply, val_main_v15_apply, val_main_v12_apply, val_main_v14_apply, val_main_v10_apply,
    val_main_v9_apply, val_main_v11_apply, val_main_c_1_apply, val_main_v13_apply, val_main_c_2_apply, idx_row1]
  rfl

/-! ## The gathers: the node table at a wrapped, clamped row

The table has one column and the start indices one component, which names the row; the slice taken is
one entry. So the result at `(e, 0)` is the table's entry at the row the start index names, read as a
signed integer and clamped into `0 … 99999`, column `0`. -/

/-- A start index read signed and clamped into the table's rows. -/
def clampRow (v : BitVec 32) : Fin 100000 := ⟨min v.toInt.toNat 99999, by omega⟩

theorem nodeOf_eq (v : BitVec 32) : Cert.MlpSpec.nodeOf v = clampRow (Cert.MlpSpec.wrap v) := rfl

local notation "gd" => gather_S100000x1_S3200000x1_S3200000x1_1_0_n_n_0_1_11

/-- The gather read at `j`: the table at the clamped row its start index `idx (j 0, 0)` names. -/
theorem gather_apply (x : FVec Ideal S100000x1 .f32) (idx : IVec S3200000x1 32) (j : S3200000x1.Idx) :
    Host.gather gd x idx j = x (ix2 (clampRow (idx (ix2 (j 0) 0))) 0) := by
  unfold Host.gather
  congr 1
  funext a
  refine Fin.ext ?_
  match a with
  | ⟨0, _⟩ =>
    -- the row axis: named by the start index, collapsed, no batching
    have hb : (gd).batchCoord j 0 = 0 := GatherDims.batchCoord_eq_zero _ _ _ List.not_mem_nil
    have ho : (gd).offCoord j 0 = 0 :=
      GatherDims.offCoord_eq_zero _ _ _ fun h => ((GatherDims.mem_sKept _ _).mp h).1 (List.mem_singleton.mpr rfl)
    have hmem : (0 : Fin S100000x1.rank) ∈ (gd).startIndexMap := List.mem_singleton.mpr rfl
    have hsi : (gd).siIdx j ⟨List.idxOf (0 : Fin S100000x1.rank) (gd).startIndexMap, List.idxOf_lt_length_iff.2 hmem⟩
        = ix2 (j 0) 0 := by
      funext b
      refine Fin.ext ?_
      match b with
      | ⟨0, _⟩ => rfl
      | ⟨1, _⟩ => rfl
    have hs : (gd).start j idx 0 = min (idx (ix2 (j 0) 0)).toInt.toNat 99999 := by
      unfold GatherDims.start
      rw [dif_pos hmem, hsi]
      rfl
    show (gd).start j idx 0 + (gd).batchCoord j 0 + (gd).offCoord j 0 = min (idx (ix2 (j 0) 0)).toInt.toNat 99999
    rw [hb, ho, hs, Nat.add_zero]
  | ⟨1, _⟩ =>
    -- the column axis has extent one
    have h : (gd).start j idx 1 + (gd).batchCoord j 1 + (gd).offCoord j 1 < 1 := (gd).lt j idx 1
    show (gd).start j idx 1 + (gd).batchCoord j 1 + (gd).offCoord j 1 = 0
    omega

/-- The first gather at `(e, 0)`: the node table at the source endpoint of edge `e`. -/
theorem v8_apply (x0 : FVec Ideal S100000x1 .f32) (x2 : IVec S2x3200000 32) (e : Fin 3200000) :
    val_main_v8 (F := Ideal) x0 x2 (ix2 e 0) = x0 (ix2 (Cert.MlpSpec.nodeOf (x2 (ix2 0 e))) 0) := by
  unfold val_main_v8
  rw [gather_apply, start_v7, nodeOf_eq]

/-- The second gather at `(e, 0)`: the node table at the target endpoint of edge `e`. -/
theorem v17_apply (x0 : FVec Ideal S100000x1 .f32) (x2 : IVec S2x3200000 32) (e : Fin 3200000) :
    val_main_v17 (F := Ideal) x0 x2 (ix2 e 0) = x0 (ix2 (Cert.MlpSpec.nodeOf (x2 (ix2 1 e))) 0) := by
  unfold val_main_v17
  rw [gather_apply, start_v16, nodeOf_eq]

/-! ## The concatenated row: the five features of an edge

Along the column axis the three pieces have extents `1`, `1`, `3`: column `0` is the first gather,
column `1` the second, columns `2 … 4` the edge's three attributes. -/

/-- Three pieces of extents `1`, `1`, `3` laid side by side, read at `(e, k)`. -/
theorem concat_apply (A B : FVec Ideal S3200000x1 .f32) (C : FVec Ideal S3200000x3 .f32)
    (h : Shape.Concatenates [S3200000x1, S3200000x1, S3200000x3] S3200000x5 1) (e : Fin 3200000) (k : Fin 5) :
    concatenate S3200000x5 1 [⟨S3200000x1, A⟩, ⟨S3200000x1, B⟩, ⟨S3200000x3, C⟩] h (ix2 e k)
      = match k with
        | ⟨0, _⟩ => A (ix2 e 0)
        | ⟨1, _⟩ => B (ix2 e 0)
        | ⟨2, _⟩ => C (ix2 e 0)
        | ⟨3, _⟩ => C (ix2 e 1)
        | ⟨4, _⟩ => C (ix2 e 2) := by
  match k with
  | ⟨0, _⟩ =>
    exact concatenate_apply_piece 1 [⟨S3200000x1, A⟩, ⟨S3200000x1, B⟩, ⟨S3200000x3, C⟩] h _ 0 (by show (0 : Nat) < 3; omega)
      S3200000x1 A rfl rfl 0 rfl (ix2 e 0)
      (fun b hb => by match b with | ⟨0, _⟩ => rfl | ⟨1, _⟩ => exact absurd rfl hb) rfl
  | ⟨1, _⟩ =>
    exact concatenate_apply_piece 1 [⟨S3200000x1, A⟩, ⟨S3200000x1, B⟩, ⟨S3200000x3, C⟩] h _ 1 (by show (1 : Nat) < 3; omega)
      S3200000x1 B rfl rfl 1 rfl (ix2 e 0)
      (fun b hb => by match b with | ⟨0, _⟩ => rfl | ⟨1, _⟩ => exact absurd rfl hb) rfl
  | ⟨2, _⟩ =>
    exact concatenate_apply_piece 1 [⟨S3200000x1, A⟩, ⟨S3200000x1, B⟩, ⟨S3200000x3, C⟩] h _ 2 (by show (2 : Nat) < 3; omega)
      S3200000x3 C rfl rfl 2 rfl (ix2 e 0)
      (fun b hb => by match b with | ⟨0, _⟩ => rfl | ⟨1, _⟩ => exact absurd rfl hb) rfl
  | ⟨3, _⟩ =>
    exact concatenate_apply_piece 1 [⟨S3200000x1, A⟩, ⟨S3200000x1, B⟩, ⟨S3200000x3, C⟩] h _ 2 (by show (2 : Nat) < 3; omega)
      S3200000x3 C rfl rfl 2 rfl (ix2 e 1)
      (fun b hb => by match b with | ⟨0, _⟩ => rfl | ⟨1, _⟩ => exact absurd rfl hb) rfl
  | ⟨4, _⟩ =>
    exact concatenate_apply_piece 1 [⟨S3200000x1, A⟩, ⟨S3200000x1, B⟩, ⟨S3200000x3, C⟩] h _ 2 (by show (2 : Nat) < 3; omega)
      S3200000x3 C rfl rfl 2 rfl (ix2 e 2)
      (fun b hb => by match b with | ⟨0, _⟩ => rfl | ⟨1, _⟩ => exact absurd rfl hb) rfl

/-- The concatenation at `(e, k)` is feature `k` of edge `e`. -/
theorem v18_apply (x0 : FVec Ideal S100000x1 .f32) (x1 : FVec Ideal S3200000x3 .f32) (x2 : IVec S2x3200000 32)
    (e : Fin 3200000) (k : Fin 5) :
    val_main_v18 (F := Ideal) x0 x1 x2 (ix2 e k) = Cert.MlpSpec.feat x0 x1 x2 e k := by
  unfold val_main_v18
  refine (concat_apply _ _ _ _ e k).trans ?_
  match k with
  | ⟨0, _⟩ => exact v8_apply x0 x2 e
  | ⟨1, _⟩ => exact v17_apply x0 x2 e
  | ⟨2, _⟩ => rfl
  | ⟨3, _⟩ => rfl
  | ⟨4, _⟩ => rfl

/-! ## The three layers

Each contraction reads row `e` of the stage before at column `k` and the weight at `(k, j)`; each bias
is a vector laid along the rows. -/

theorem lidx19 (e : Fin 3200000) (j : Fin 50) (k : Fin 5) : lidx_main_v19 (ix2 e j) k = ix2 e k := by
  funext a; match a with | ⟨0, _⟩ => rfl | ⟨1, _⟩ => rfl
theorem ridx19 (e : Fin 3200000) (j : Fin 50) (k : Fin 5) : ridx_main_v19 (ix2 e j) k = ix2 k j := by
  funext a; match a with | ⟨0, _⟩ => rfl | ⟨1, _⟩ => rfl
theorem bidx21 (e : Fin 3200000) (j : Fin 50) : idx_main_v20 (idx_main_v21 (ix2 e j)) = ix1 j := by
  funext a; match a with | ⟨0, _⟩ => rfl
theorem lidx24 (e : Fin 3200000) (j k : Fin 50) : lidx_main_v24 (ix2 e j) k = ix2 e k := by
  funext a; match a with | ⟨0, _⟩ => rfl | ⟨1, _⟩ => rfl
theorem ridx24 (e : Fin 3200000) (j k : Fin 50) : ridx_main_v24 (ix2 e j) k = ix2 k j := by
  funext a; match a with | ⟨0, _⟩ => rfl | ⟨1, _⟩ => rfl
theorem bidx26 (e : Fin 3200000) (j : Fin 50) : idx_main_v25 (idx_main_v26 (ix2 e j)) = ix1 j := by
  funext a; match a with | ⟨0, _⟩ => rfl
theorem lidx29 (e : Fin 3200000) (z : Fin 1) (k : Fin 50) : lidx_main_v29 (ix2 e z) k = ix2 e k := by
  funext a; match a with | ⟨0, _⟩ => rfl | ⟨1, _⟩ => rfl
theorem ridx29 (e : Fin 3200000) (z : Fin 1) (k : Fin 50) : ridx_main_v29 (ix2 e z) k = ix2 k z := by
  funext a; match a with | ⟨0, _⟩ => rfl | ⟨1, _⟩ => rfl
theorem bidx31 (e : Fin 3200000) (z : Fin 1) : idx_main_v30 (idx_main_v31 (ix2 e z)) = ix1 0 := by
  funext a; match a with | ⟨0, _⟩ => rfl

/-- The first layer at `(e, j)`. -/
theorem v23_apply (x0 : FVec Ideal S100000x1 .f32) (x1 : FVec Ideal S3200000x3 .f32) (x2 : IVec S2x3200000 32)
    (x3 : FVec Ideal S5x50 .f32) (x4 : FVec Ideal S50 .f32) (e : Fin 3200000) (j : Fin 50) :
    val_main_v23 (F := Ideal) x0 x1 x2 x3 x4 (ix2 e j)
      = Cert.MlpSpec.layerR (fun k j => x3 (ix2 k j)) (fun j => x4 (ix1 j)) (Cert.MlpSpec.feat x0 x1 x2 e) j := by
  rw [val_main_v23_apply, val_main_v22_apply, val_main_v19_apply, val_main_v21_apply, val_main_v20_apply,
    val_main_call0_v0_apply, val_main_call0_cst_apply, bidx21]
  simp only [Ideal.maximumf_def, Ideal.addf_def, Ideal.ofBits_def, Ideal.ofBits_zero_f32, lidx19, ridx19, v18_apply]
  rfl

/-- The second layer at `(e, j)`. -/
theorem v28_apply (x0 : FVec Ideal S100000x1 .f32) (x1 : FVec Ideal S3200000x3 .f32) (x2 : IVec S2x3200000 32)
    (x3 : FVec Ideal S5x50 .f32) (x4 : FVec Ideal S50 .f32) (x5 : FVec Ideal S50x50 .f32) (x6 : FVec Ideal S50 .f32)
    (e : Fin 3200000) (j : Fin 50) :
    val_main_v28 (F := Ideal) x0 x1 x2 x3 x4 x5 x6 (ix2 e j)
      = Cert.MlpSpec.layerR (fun k j => x5 (ix2 k j)) (fun j => x6 (ix1 j))
          (Cert.MlpSpec.layerR (fun k j => x3 (ix2 k j)) (fun j => x4 (ix1 j)) (Cert.MlpSpec.feat x0 x1 x2 e)) j := by
  rw [val_main_v28_apply, val_main_v27_apply, val_main_v24_apply, val_main_v26_apply, val_main_v25_apply,
    val_main_call1_v0_apply, val_main_call1_cst_apply, bidx26]
  simp only [Ideal.maximumf_def, Ideal.addf_def, Ideal.ofBits_def, Ideal.ofBits_zero_f32, lidx24, ridx24, v23_apply]
  rfl

/-- The last contraction and its bias at `(e, 0)`: the argument of the logistic function. -/
theorem v32_apply (x0 : FVec Ideal S100000x1 .f32) (x1 : FVec Ideal S3200000x3 .f32) (x2 : IVec S2x3200000 32)
    (x3 : FVec Ideal S5x50 .f32) (x4 : FVec Ideal S50 .f32) (x5 : FVec Ideal S50x50 .f32) (x6 : FVec Ideal S50 .f32)
    (x7 : FVec Ideal S50x1 .f32) (x8 : FVec Ideal S1 .f32) (e : Fin 3200000) :
    val_main_v32 (F := Ideal) x0 x1 x2 x3 x4 x5 x6 x7 x8 (ix2 e 0)
      = (∑ k, Cert.MlpSpec.layerR (fun k j => x5 (ix2 k j)) (fun j => x6 (ix1 j))
          (Cert.MlpSpec.layerR (fun k j => x3 (ix2 k j)) (fun j => x4 (ix1 j)) (Cert.MlpSpec.feat x0 x1 x2 e)) k
            * x7 (ix2 k 0)) + x8 (ix1 0) := by
  rw [val_main_v32_apply, val_main_v29_apply, val_main_v31_apply, val_main_v30_apply, bidx31]
  simp only [Ideal.addf_def, lidx29, ridx29, v28_apply]

/-- The word `0x3F800000` is the number one. -/
theorem ofBits_one_f32 : Ideal.ofBits .f32 0x3F800000#32 = 1 := IdealRules.sign_bit.ideal_onePat .f32

/-- The last stage of the plain formulation is the specified result, index by index. -/
theorem result_eq (x0 : FVec Ideal S100000x1 .f32) (x1 : FVec Ideal S3200000x3 .f32) (x2 : IVec S2x3200000 32)
    (x3 : FVec Ideal S5x50 .f32) (x4 : FVec Ideal S50 .f32) (x5 : FVec Ideal S50x50 .f32) (x6 : FVec Ideal S50 .f32)
    (x7 : FVec Ideal S50x1 .f32) (x8 : FVec Ideal S1 .f32) :
    val_main_v38 (F := Ideal) x0 x1 x2 x3 x4 x5 x6 x7 x8 = Cert.MlpSpec.result x0 x1 x2 x3 x4 x5 x6 x7 x8 := by
  funext i
  obtain ⟨e, z, rfl⟩ : ∃ (e : Fin 3200000) (z : Fin 1), i = ix2 e z := ⟨i 0, i 1, eq_ix2 i⟩
  obtain rfl : z = 0 := Subsingleton.elim _ _
  rw [val_main_v38_apply, val_main_v37_apply, val_main_cst_3_apply, val_main_v36_apply, val_main_v35_apply,
    val_main_cst_apply, val_main_v34_apply, val_main_v33_apply, v32_apply]
  simp only [Ideal.hostDivf_def, Ideal.addf_def, Ideal.hostUnary_exp_def, Ideal.hostNegf_def, Ideal.negf_def,
    Ideal.ofBits_def, ofBits_one_f32]
  rfl

end Cert.ReferenceIdeal.RefValue

end
-- ==== Proof.Body.lean ====
/-
  The tiled formulation's body at one lane.

  A tile holds 32768 edges along the lanes. For lane `q` the body's stored value is the perceptron, in the
  transposed arrangement `MlpSpec.outK`, of the lane's five features — the two node values `x0 (0, q)`,
  `x1 (0, q)` and the three attributes `x2 (0, q)`, `x2 (1, q)`, `x2 (2, q)` — with the weights read from the
  resident blocks: the first layer's rows from the two columns `x3`, `x4` and the three columns of `x5`, the
  later layers' from the transposed matrices `x7`, `x9`, and the biases from `x6`, `x8`, `x10`.
-/
import proofs.«413811_j63282048139713_3_alg».proof.Proof.Gen.KernelIdeal.Frame
import proofs.«413811_j63282048139713_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.MlpSpec

/-- The first layer's weights as the body holds them: rows 0 and 1 as columns, rows 2 to 4 as the three
    columns of a 50 × 3 block. -/
def w1Of (x3 x4 : Vec Ideal S50x1 .f32) (x5 : Vec Ideal S50x3 .f32) : Fin 5 → Fin 50 → EReal := fun k j =>
  match k with
  | ⟨0, _⟩ => x3 (ix2 j 0)
  | ⟨1, _⟩ => x4 (ix2 j 0)
  | ⟨2, _⟩ => x5 (ix2 j 0)
  | ⟨3, _⟩ => x5 (ix2 j 1)
  | ⟨4, _⟩ => x5 (ix2 j 2)

/-- Lane `q`'s five features, read from the three streamed blocks. -/
def featOf (x0 x1 : Vec Ideal S1x32768 .f32) (x2 : Vec Ideal S3x32768 .f32) (q : Fin 32768) : Fin 5 → EReal := fun k =>
  match k with
  | ⟨0, _⟩ => x0 (ix2 0 q)
  | ⟨1, _⟩ => x1 (ix2 0 q)
  | ⟨2, _⟩ => x2 (ix2 0 q)
  | ⟨3, _⟩ => x2 (ix2 1 q)
  | ⟨4, _⟩ => x2 (ix2 2 q)

/-! ## Layout operations of the body, read at an index -/

/-- The zero offsets of every access of the body. -/
theorem offs_zero : (![0, 0] : Fin 2 → Nat) = fun _ => 0 := funext fun a => by
  match a with
  | ⟨0, _⟩ => rfl
  | ⟨1, _⟩ => rfl

section Layout
variable {α : Type}

/-- A column broadcast along the lanes reads, at `(j, q)`, the column at `j`. -/
theorem bcast_col (v : S50x1.Idx → α) (h : S50x1.Broadcasts S50x32768) (j : Fin 50) (q : Fin 32768) :
    broadcastTo S50x32768 v h (ix2 j q) = v (ix2 j 0) :=
  broadcastTo_apply v h (ix2 j q) (ix2 j 0) fun a => by
    match a with
    | ⟨0, _⟩ => rfl
    | ⟨1, _⟩ => rfl

/-- A row of lanes broadcast over the 50 rows reads, at `(j, q)`, the row at `q`. -/
theorem bcast_row (v : S1x32768.Idx → α) (h : S1x32768.Broadcasts S50x32768) (j : Fin 50) (q : Fin 32768) :
    broadcastTo S50x32768 v h (ix2 j q) = v (ix2 0 q) :=
  broadcastTo_1b_ab_apply v h j q

/-- A single entry broadcast along the lanes reads that entry. -/
theorem bcast_one (v : S1x1.Idx → α) (h : S1x1.Broadcasts S1x32768) (q : Fin 32768) :
    broadcastTo S1x32768 v h (ix2 0 q) = v (ix2 0 0) :=
  broadcastTo_apply v h (ix2 0 q) (ix2 0 0) fun a => by
    match a with
    | ⟨0, _⟩ => rfl
    | ⟨1, _⟩ => rfl

/-- Column `c` of the 50 × 3 block, as a 50 × 1 slice. -/
theorem slice_col (o : Nat) (v : S50x3.Idx → α) (h : S50x3.Slices ![0, o] S50x1) (j : Fin 50) (c : Fin 3) (hc : c.val = o) :
    extractStridedSlice S50x1 ![0, o] v h (ix2 j 0) = v (ix2 j c) :=
  slice2_axis1_apply o v h j 0 c (by rw [hc]; rfl)

/-- Row `r` of the 3 × 32768 block, as a 1 × 32768 slice. -/
theorem slice_row (o : Nat) (v : S3x32768.Idx → α) (h : S3x32768.Slices ![o, 0] S1x32768) (q : Fin 32768) (r : Fin 3) (hr : r.val = o) :
    extractStridedSlice S1x32768 ![o, 0] v h (ix2 0 q) = v (ix2 r q) :=
  slice2_axis0_apply o v h 0 q r (by rw [hr]; rfl)

end Layout

/-! ## The two matrix products, read at an index -/

theorem lhs_mm1_0 (i : S50x32768.Idx) (c : dot_S50x50_S50x32768_S50x32768_1_0_0_1_n_n.contr.Idx) :
    (dot_S50x50_S50x32768_S50x32768_1_0_0_1_n_n.lhsIdx i c 0).val = (i 0).val := by
  unfold DotDims.lhsIdx
  rw [dif_neg (show ¬(0 : Fin S50x50.rank) ∈ dot_S50x50_S50x32768_S50x32768_1_0_0_1_n_n.lhsBatch by decide), dif_pos (show (0 : Fin S50x50.rank) ∈ dot_S50x50_S50x32768_S50x32768_1_0_0_1_n_n.lhsNonContracting by decide)]
  rfl
theorem lhs_mm1_1 (i : S50x32768.Idx) (c : dot_S50x50_S50x32768_S50x32768_1_0_0_1_n_n.contr.Idx) :
    (dot_S50x50_S50x32768_S50x32768_1_0_0_1_n_n.lhsIdx i c 1).val = (c ⟨0, by decide⟩).val :=
  dot_S50x50_S50x32768_S50x32768_1_0_0_1_n_n.lhsIdx_val_of_single rfl i c
theorem rhs_mm1_0 (i : S50x32768.Idx) (c : dot_S50x50_S50x32768_S50x32768_1_0_0_1_n_n.contr.Idx) :
    (dot_S50x50_S50x32768_S50x32768_1_0_0_1_n_n.rhsIdx i c 0).val = (c ⟨0, by decide⟩).val :=
  dot_S50x50_S50x32768_S50x32768_1_0_0_1_n_n.rhsIdx_val_of_single rfl i c
theorem rhs_mm1_1 (i : S50x32768.Idx) (c : dot_S50x50_S50x32768_S50x32768_1_0_0_1_n_n.contr.Idx) :
    (dot_S50x50_S50x32768_S50x32768_1_0_0_1_n_n.rhsIdx i c 1).val = (i 1).val := by
  unfold DotDims.rhsIdx
  rw [dif_neg (show ¬(1 : Fin S50x32768.rank) ∈ dot_S50x50_S50x32768_S50x32768_1_0_0_1_n_n.rhsBatch by decide), dif_pos (show (1 : Fin S50x32768.rank) ∈ dot_S50x50_S50x32768_S50x32768_1_0_0_1_n_n.rhsNonContracting by decide)]
  rfl

theorem lhs_mm2_0 (i : S1x32768.Idx) (c : dot_S1x50_S50x32768_S1x32768_1_0_0_1_n_n.contr.Idx) :
    (dot_S1x50_S50x32768_S1x32768_1_0_0_1_n_n.lhsIdx i c 0).val = (i 0).val := by
  unfold DotDims.lhsIdx
  rw [dif_neg (show ¬(0 : Fin S1x50.rank) ∈ dot_S1x50_S50x32768_S1x32768_1_0_0_1_n_n.lhsBatch by decide), dif_pos (show (0 : Fin S1x50.rank) ∈ dot_S1x50_S50x32768_S1x32768_1_0_0_1_n_n.lhsNonContracting by decide)]
  rfl
theorem lhs_mm2_1 (i : S1x32768.Idx) (c : dot_S1x50_S50x32768_S1x32768_1_0_0_1_n_n.contr.Idx) :
    (dot_S1x50_S50x32768_S1x32768_1_0_0_1_n_n.lhsIdx i c 1).val = (c ⟨0, by decide⟩).val :=
  dot_S1x50_S50x32768_S1x32768_1_0_0_1_n_n.lhsIdx_val_of_single rfl i c
theorem rhs_mm2_0 (i : S1x32768.Idx) (c : dot_S1x50_S50x32768_S1x32768_1_0_0_1_n_n.contr.Idx) :
    (dot_S1x50_S50x32768_S1x32768_1_0_0_1_n_n.rhsIdx i c 0).val = (c ⟨0, by decide⟩).val :=
  dot_S1x50_S50x32768_S1x32768_1_0_0_1_n_n.rhsIdx_val_of_single rfl i c
theorem rhs_mm2_1 (i : S1x32768.Idx) (c : dot_S1x50_S50x32768_S1x32768_1_0_0_1_n_n.contr.Idx) :
    (dot_S1x50_S50x32768_S1x32768_1_0_0_1_n_n.rhsIdx i c 1).val = (i 1).val := by
  unfold DotDims.rhsIdx
  rw [dif_neg (show ¬(1 : Fin S50x32768.rank) ∈ dot_S1x50_S50x32768_S1x32768_1_0_0_1_n_n.rhsBatch by decide), dif_pos (show (1 : Fin S50x32768.rank) ∈ dot_S1x50_S50x32768_S1x32768_1_0_0_1_n_n.rhsNonContracting by decide)]
  rfl

/-- The 50 × 50 block times the hidden tile, into a zero accumulator: the sum over the contracted axis. -/
theorem mm1_at (A : FVec Ideal S50x50 .f32) (B : FVec Ideal S50x32768 .f32) (p : Fin 50) (q : Fin 32768) :
    matmul (F := Ideal) dot_S50x50_S50x32768_S50x32768_1_0_0_1_n_n (some .fp32) A B (constant (F := Ideal) S50x32768 .f32 0x00000000#32) (ix2 p q)
      = ∑ k : Fin 50, A (ix2 p k) * B (ix2 k q) := by
  simp only [matmul]
  rw [Ideal.matmul_constant_zero_apply, ← Equiv.sum_comp (ValueIdx.contrEquiv1 dot_S50x50_S50x32768_S50x32768_1_0_0_1_n_n 50 rfl rfl).symm]
  refine Finset.sum_congr rfl fun k _ => ?_
  have hk := ValueIdx.contrEquiv1_symm_val dot_S50x50_S50x32768_S50x32768_1_0_0_1_n_n 50 rfl rfl k
  have el : dot_S50x50_S50x32768_S50x32768_1_0_0_1_n_n.lhsIdx (ix2 p q) ((ValueIdx.contrEquiv1 dot_S50x50_S50x32768_S50x32768_1_0_0_1_n_n 50 rfl rfl).symm k) = ix2 p k := funext fun a => Fin.ext (by
    match a with
    | ⟨0, _⟩ => exact lhs_mm1_0 _ _
    | ⟨1, _⟩ => exact (lhs_mm1_1 _ _).trans hk)
  have er : dot_S50x50_S50x32768_S50x32768_1_0_0_1_n_n.rhsIdx (ix2 p q) ((ValueIdx.contrEquiv1 dot_S50x50_S50x32768_S50x32768_1_0_0_1_n_n 50 rfl rfl).symm k) = ix2 k q := funext fun a => Fin.ext (by
    match a with
    | ⟨0, _⟩ => exact (rhs_mm1_0 _ _).trans hk
    | ⟨1, _⟩ => exact rhs_mm1_1 _ _)
  rw [el, er]

/-- The 1 × 50 block times the hidden tile, into a zero accumulator: the sum over the contracted axis. -/
theorem mm2_at (A : FVec Ideal S1x50 .f32) (B : FVec Ideal S50x32768 .f32) (p : Fin 1) (q : Fin 32768) :
    matmul (F := Ideal) dot_S1x50_S50x32768_S1x32768_1_0_0_1_n_n (some .fp32) A B (constant (F := Ideal) S1x32768 .f32 0x00000000#32) (ix2 p q)
      = ∑ k : Fin 50, A (ix2 p k) * B (ix2 k q) := by
  simp only [matmul]
  rw [Ideal.matmul_constant_zero_apply, ← Equiv.sum_comp (ValueIdx.contrEquiv1 dot_S1x50_S50x32768_S1x32768_1_0_0_1_n_n 50 rfl rfl).symm]
  refine Finset.sum_congr rfl fun k _ => ?_
  have hk := ValueIdx.contrEquiv1_symm_val dot_S1x50_S50x32768_S1x32768_1_0_0_1_n_n 50 rfl rfl k
  have el : dot_S1x50_S50x32768_S1x32768_1_0_0_1_n_n.lhsIdx (ix2 p q) ((ValueIdx.contrEquiv1 dot_S1x50_S50x32768_S1x32768_1_0_0_1_n_n 50 rfl rfl).symm k) = ix2 p k := funext fun a => Fin.ext (by
    match a with
    | ⟨0, _⟩ => exact lhs_mm2_0 _ _
    | ⟨1, _⟩ => exact (lhs_mm2_1 _ _).trans hk)
  have er : dot_S1x50_S50x32768_S1x32768_1_0_0_1_n_n.rhsIdx (ix2 p q) ((ValueIdx.contrEquiv1 dot_S1x50_S50x32768_S1x32768_1_0_0_1_n_n 50 rfl rfl).symm k) = ix2 k q := funext fun a => Fin.ext (by
    match a with
    | ⟨0, _⟩ => exact (rhs_mm2_0 _ _).trans hk
    | ⟨1, _⟩ => exact rhs_mm2_1 _ _)
  rw [el, er]

/-! ## The layers -/

/-- The first layer at row `j`, lane `q`: five rank-one terms and the bias, then the relu. -/
theorem h1_at (x0 x1 : Vec Ideal S1x32768 .f32) (x2 : Vec Ideal S3x32768 .f32) (x3 x4 : Vec Ideal S50x1 .f32)
    (x5 : Vec Ideal S50x3 .f32) (x6 : Vec Ideal S50x1 .f32) (j : Fin 50) (q : Fin 32768) :
    k0_pay2 (F := Ideal) x0 x1 x2 x3 x4 x5 x6 (ix2 j q)
      = layer1K (w1Of x3 x4 x5) (fun j => x6 (ix2 j 0)) (featOf x0 x1 x2 q) j := by
  unfold k0_pay2 layer1K
  simp only [shapeCast_self, maximumf_apply, addf_apply, mulf_apply, broadcast_apply, bcast_col, bcast_row,
    slice_col 0 _ _ _ 0 rfl, slice_col 1 _ _ _ 1 rfl, slice_col 2 _ _ _ 2 rfl,
    slice_row 0 _ _ _ 0 rfl, slice_row 1 _ _ _ 1 rfl, slice_row 2 _ _ _ 2 rfl]
  rw [show (Scalar.ofBits (F := Ideal) .f32 0x00000000#32 : EReal) = 0 from Ideal.ofBits_zero_f32]
  rfl

/-- The later layers at lane `q`, over any hidden tile `v`. -/
theorem pay1_at (v : FVec Ideal S50x32768 .f32) (x7 : Vec Ideal S50x50 .f32) (x8 : Vec Ideal S50x1 .f32)
    (x9 : Vec Ideal S1x50 .f32) (x10 : Vec Ideal S1x1 .f32) (q : Fin 32768) :
    k0_pay1 (F := Ideal) v x7 x8 x9 x10 (ix2 0 q)
      = Ideal.logistic ((∑ k : Fin 50, x9 (ix2 0 k)
          * max ((∑ i : Fin 50, x7 (ix2 k i) * v (ix2 i q)) + x8 (ix2 k 0)) 0) + x10 (ix2 0 0)) := by
  unfold k0_pay1
  simp only [shapeCast_self]
  show Ideal.logistic (_ + _) = _
  rw [mm2_at, bcast_one]
  refine congrArg (fun s => Ideal.logistic (s + x10 (ix2 0 0))) (Finset.sum_congr rfl fun k _ => ?_)
  refine congrArg (fun s => x9 (ix2 0 k) * s) ?_
  show max (_ + _) _ = _
  rw [mm1_at, bcast_col]
  rw [show (Scalar.ofBits (F := Ideal) .f32 0x00000000#32 : EReal) = 0 from Ideal.ofBits_zero_f32]
  rfl

/-- What the body leaves in the output block at lane `q`. -/
theorem out_at (x0 x1 : Vec Ideal S1x32768 .f32) (x2 : Vec Ideal S3x32768 .f32) (x3 x4 : Vec Ideal S50x1 .f32)
    (x5 : Vec Ideal S50x3 .f32) (x6 : Vec Ideal S50x1 .f32) (x7 : Vec Ideal S50x50 .f32) (x8 : Vec Ideal S50x1 .f32)
    (x9 : Vec Ideal S1x50 .f32) (x10 : Vec Ideal S1x1 .f32) (q : Fin 32768) :
    out0_11 (F := Ideal) x0 x1 x2 x3 x4 x5 x6 x7 x8 x9 x10 (ix2 0 q)
      = outK (w1Of x3 x4 x5) (fun j => x6 (ix2 j 0)) (fun k j => x7 (ix2 j k)) (fun j => x8 (ix2 j 0))
          (fun k _ => x9 (ix2 0 k)) (fun _ => x10 (ix2 0 0)) (featOf x0 x1 x2 q) := by
  unfold out0_11
  rw [View.canon_unit_zero offs_zero]
  simp only [View.ld_unit_zero (S := S1x32768) offs_zero, View.ld_unit_zero (S := S3x32768) offs_zero,
    View.ld_unit_zero (S := S50x1) offs_zero, View.ld_unit_zero (S := S50x3) offs_zero,
    View.ld_unit_zero (S := S50x50) offs_zero, View.ld_unit_zero (S := S1x50) offs_zero,
    View.ld_unit_zero (S := S1x1) offs_zero]
  rw [pay1_at]
  simp only [h1_at]
  rfl

end Cert.KernelIdeal.Body

end
-- ==== Proof.Tile.lean ====
/-
  The tiled formulation's output array, before the host tail.

  The region runs 98 grid points; point `t` streams lanes `32768 t … 32768 t + 32767` of the two padded
  node-value rows and of the three attribute rows, keeps the eight weight and bias blocks resident (their
  index maps are constant: each block is its whole array), and writes back lane block `t` of the output
  row. So what point `t` writes at lane `q` is the perceptron of the features at padded position
  `32768 t + q`; the 98 blocks tile the 3211264 positions; hence the output row ends holding, at every
  padded position `p`, the perceptron of position `p`'s features: the function `GP`.
-/
import proofs.«413811_j63282048139713_3_alg».proof.Proof.Gen.KernelIdeal.Frame
import proofs.«413811_j63282048139713_3_alg».proof.Proof.Spec
import proofs.«413811_j63282048139713_3_alg».proof.Proof.Body
import Idealize.ShloMosaic.Lib.Pipeline.Value
import Idealize.ShloMosaic.Lib.ValueIdx

set_option maxRecDepth 16384

noncomputable section

namespace Cert.KernelIdeal.Tile

open Cert.KernelIdeal Cert.KernelIdeal.Gen Cert.KernelIdeal.Body Idealize.ShloMosaic Idealize.ShloMosaic.TcCoe
open Idealize.ShloMosaic.ValueIdx Cert.MlpSpec
open Idealize.ShloMosaic.Pipeline (Dat Cfg Window)

variable (m : (ℓ : Loc nD τ sig) → Buf (Elt Ideal) ℓ)

/-! ## The eleven input arrays as the region finds them, at their literal types -/

abbrev B0 (c : Dev nD) : Vec Ideal S1x3211264 .f32 := V m c main_v11
abbrev B1 (c : Dev nD) : Vec Ideal S1x3211264 .f32 := V m c main_v12
abbrev B2 (c : Dev nD) : Vec Ideal S3x3211264 .f32 := V m c main_v10
abbrev B3 (c : Dev nD) : Vec Ideal S50x1 .f32 := V m c main_v14
abbrev B4 (c : Dev nD) : Vec Ideal S50x1 .f32 := V m c main_v15
abbrev B5 (c : Dev nD) : Vec Ideal S50x3 .f32 := V m c main_v16
abbrev B6 (c : Dev nD) : Vec Ideal S50x1 .f32 := V m c main_v17
abbrev B7 (c : Dev nD) : Vec Ideal S50x50 .f32 := V m c main_v18
abbrev B8 (c : Dev nD) : Vec Ideal S50x1 .f32 := V m c main_v19
abbrev B9 (c : Dev nD) : Vec Ideal S1x50 .f32 := V m c main_v20
abbrev B10 (c : Dev nD) : Vec Ideal S1x1 .f32 := V m c main_v21

/-- The five features at padded position `p`. -/
def featP (c : Dev nD) (p : Fin 3211264) : Fin 5 → EReal := fun k =>
  match k with
  | ⟨0, _⟩ => B0 m c (ix2 0 p)
  | ⟨1, _⟩ => B1 m c (ix2 0 p)
  | ⟨2, _⟩ => B2 m c (ix2 0 p)
  | ⟨3, _⟩ => B2 m c (ix2 1 p)
  | ⟨4, _⟩ => B2 m c (ix2 2 p)

/-- The output row: at padded position `p` the perceptron of that position's features. -/
def GP (c : Dev nD) : Vec Ideal S1x3211264 .f32 := fun i =>
  outK (w1Of (B3 m c) (B4 m c) (B5 m c)) (fun j => B6 m c (ix2 j 0)) (fun k j => B7 m c (ix2 j k))
    (fun j => B8 m c (ix2 j 0)) (fun k _ => B9 m c (ix2 0 k)) (fun _ => B10 m c (ix2 0 0))
    (featP m c ⟨(i 1).val, idx2_lt1 i⟩)

/-! ## The index maps, decided over the 98 points -/

theorem idx_stream : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_11.index t (0 : Fin 2) = 0 ∧ win0_11.index t (1 : Fin 2) = t.val :=
  (by decide +kernel : ∀ t : Fin grid0.N, _)

theorem idx_resident : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Position `32768 t + q` is one of the 3211264 padded positions. -/
theorem pos_lt (t : Fin cfg0.N) (q : Fin 32768) : t.val * 32768 + q.val < 3211264 := by
  have ht : t.val < cfg0.N := t.isLt
  have hN : cfg0.N = 98 := N_0
  have hq := q.isLt
  omega

/-! ## The streamed blocks: lane `q` of point `t`'s block is padded position `32768 t + q` -/

theorem blk0_apply (c : Dev nD) (t : Fin cfg0.N) (q : Fin 32768) :
    (iblk m c 0 t : Vec Ideal S1x32768 .f32) (ix2 0 q) = B0 m c (ix2 0 ⟨t.val * 32768 + q.val, pos_lt t q⟩) := by
  obtain ⟨e0, e1, -⟩ := idx_stream t
  unfold iblk
  rw [View.read_apply]
  show V m c main_v11 _ = V m c main_v11 _
  congr 1
  funext a
  apply Fin.ext
  match a with
  | ⟨0, _⟩ => show win0_0.index t (0 : Fin 2) * 1 + 1 * 0 = 0; rw [e0]
  | ⟨1, _⟩ => show win0_0.index t (1 : Fin 2) * 32768 + 1 * q.val = t.val * 32768 + q.val; rw [e1]; omega

theorem blk1_apply (c : Dev nD) (t : Fin cfg0.N) (q : Fin 32768) :
    (iblk m c 1 t : Vec Ideal S1x32768 .f32) (ix2 0 q) = B1 m c (ix2 0 ⟨t.val * 32768 + q.val, pos_lt t q⟩) := by
  obtain ⟨-, -, e0, e1, -⟩ := idx_stream t
  unfold iblk
  rw [View.read_apply]
  show V m c main_v12 _ = V m c main_v12 _
  congr 1
  funext a
  apply Fin.ext
  match a with
  | ⟨0, _⟩ => show win0_1.index t (0 : Fin 2) * 1 + 1 * 0 = 0; rw [e0]
  | ⟨1, _⟩ => show win0_1.index t (1 : Fin 2) * 32768 + 1 * q.val = t.val * 32768 + q.val; rw [e1]; omega

theorem blk2_apply (c : Dev nD) (t : Fin cfg0.N) (r : Fin 3) (q : Fin 32768) :
    (iblk m c 2 t : Vec Ideal S3x32768 .f32) (ix2 r q) = B2 m c (ix2 r ⟨t.val * 32768 + q.val, pos_lt t q⟩) := by
  obtain ⟨-, -, -, -, e0, e1, -⟩ := idx_stream t
  unfold iblk
  rw [View.read_apply]
  show V m c main_v10 _ = V m c main_v10 _
  congr 1
  funext a
  apply Fin.ext
  match a with
  | ⟨0, _⟩ => show win0_2.index t (0 : Fin 2) * 3 + 1 * r.val = r.val; rw [e0]; omega
  | ⟨1, _⟩ => show win0_2.index t (1 : Fin 2) * 32768 + 1 * q.val = t.val * 32768 + q.val; rw [e1]; omega

/-- The lane's features are the padded position's. -/
theorem feat_blk (c : Dev nD) (t : Fin cfg0.N) (q : Fin 32768) :
    featOf (iblk m c 0 t) (iblk m c 1 t) (iblk m c 2 t) q = featP m c ⟨t.val * 32768 + q.val, pos_lt t q⟩ := by
  funext k
  match k with
  | ⟨0, _⟩ => exact blk0_apply m c t q
  | ⟨1, _⟩ => exact blk1_apply m c t q
  | ⟨2, _⟩ => exact blk2_apply m c t 0 q
  | ⟨3, _⟩ => exact blk2_apply m c t 1 q
  | ⟨4, _⟩ => exact blk2_apply m c t 2 q

/-! ## The resident blocks: a constant index map, the block is the whole array -/

theorem blk3_eq (c : Dev nD) (t : Fin cfg0.N) : (iblk m c 3 t : Vec Ideal S50x1 .f32) = B3 m c := by
  obtain ⟨⟨e0, e1⟩, -⟩ := idx_resident t
  funext y
  unfold iblk
  rw [View.read_apply]
  show V m c main_v14 _ = V m c main_v14 y
  congr 1
  funext a
  apply Fin.ext
  match a with
  | ⟨0, _⟩ => show win0_3.index t (0 : Fin 2) * 50 + 1 * (y 0).val = (y 0).val; rw [e0]; omega
  | ⟨1, _⟩ => show win0_3.index t (1 : Fin 2) * 1 + 1 * (y 1).val = (y 1).val; rw [e1]; omega

theorem blk4_eq (c : Dev nD) (t : Fin cfg0.N) : (iblk m c 4 t : Vec Ideal S50x1 .f32) = B4 m c := by
  obtain ⟨-, ⟨e0, e1⟩, -⟩ := idx_resident t
  funext y
  unfold iblk
  rw [View.read_apply]
  show V m c main_v15 _ = V m c main_v15 y
  congr 1
  funext a
  apply Fin.ext
  match a with
  | ⟨0, _⟩ => show win0_4.index t (0 : Fin 2) * 50 + 1 * (y 0).val = (y 0).val; rw [e0]; omega
  | ⟨1, _⟩ => show win0_4.index t (1 : Fin 2) * 1 + 1 * (y 1).val = (y 1).val; rw [e1]; omega

theorem blk5_eq (c : Dev nD) (t : Fin cfg0.N) : (iblk m c 5 t : Vec Ideal S50x3 .f32) = B5 m c := by
  obtain ⟨-, -, ⟨e0, e1⟩, -⟩ := idx_resident t
  funext y
  unfold iblk
  rw [View.read_apply]
  show V m c main_v16 _ = V m c main_v16 y
  congr 1
  funext a
  apply Fin.ext
  match a with
  | ⟨0, _⟩ => show win0_5.index t (0 : Fin 2) * 50 + 1 * (y 0).val = (y 0).val; rw [e0]; omega
  | ⟨1, _⟩ => show win0_5.index t (1 : Fin 2) * 3 + 1 * (y 1).val = (y 1).val; rw [e1]; omega

theorem blk6_eq (c : Dev nD) (t : Fin cfg0.N) : (iblk m c 6 t : Vec Ideal S50x1 .f32) = B6 m c := by
  obtain ⟨-, -, -, ⟨e0, e1⟩, -⟩ := idx_resident t
  funext y
  unfold iblk
  rw [View.read_apply]
  show V m c main_v17 _ = V m c main_v17 y
  congr 1
  funext a
  apply Fin.ext
  match a with
  | ⟨0, _⟩ => show win0_6.index t (0 : Fin 2) * 50 + 1 * (y 0).val = (y 0).val; rw [e0]; omega
  | ⟨1, _⟩ => show win0_6.index t (1 : Fin 2) * 1 + 1 * (y 1).val = (y 1).val; rw [e1]; omega

theorem blk7_eq (c : Dev nD) (t : Fin cfg0.N) : (iblk m c 7 t : Vec Ideal S50x50 .f32) = B7 m c := by
  obtain ⟨-, -, -, -, ⟨e0, e1⟩, -⟩ := idx_resident t
  funext y
  unfold iblk
  rw [View.read_apply]
  show V m c main_v18 _ = V m c main_v18 y
  congr 1
  funext a
  apply Fin.ext
  match a with
  | ⟨0, _⟩ => show win0_7.index t (0 : Fin 2) * 50 + 1 * (y 0).val = (y 0).val; rw [e0]; omega
  | ⟨1, _⟩ => show win0_7.index t (1 : Fin 2) * 50 + 1 * (y 1).val = (y 1).val; rw [e1]; omega

theorem blk8_eq (c : Dev nD) (t : Fin cfg0.N) : (iblk m c 8 t : Vec Ideal S50x1 .f32) = B8 m c := by
  obtain ⟨-, -, -, -, -, ⟨e0, e1⟩, -⟩ := idx_resident t
  funext y
  unfold iblk
  rw [View.read_apply]
  show V m c main_v19 _ = V m c main_v19 y
  congr 1
  funext a
  apply Fin.ext
  match a with
  | ⟨0, _⟩ => show win0_8.index t (0 : Fin 2) * 50 + 1 * (y 0).val = (y 0).val; rw [e0]; omega
  | ⟨1, _⟩ => show win0_8.index t (1 : Fin 2) * 1 + 1 * (y 1).val = (y 1).val; rw [e1]; omega

theorem blk9_eq (c : Dev nD) (t : Fin cfg0.N) : (iblk m c 9 t : Vec Ideal S1x50 .f32) = B9 m c := by
  obtain ⟨-, -, -, -, -, -, ⟨e0, e1⟩, -⟩ := idx_resident t
  funext y
  unfold iblk
  rw [View.read_apply]
  show V m c main_v20 _ = V m c main_v20 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 50 + 1 * (y 1).val = (y 1).val; rw [e1]; omega

theorem blk10_eq (c : Dev nD) (t : Fin cfg0.N) : (iblk m c 10 t : Vec Ideal S1x1 .f32) = B10 m c := by
  obtain ⟨-, -, -, -, -, -, -, e0, e1⟩ := idx_resident t
  funext y
  unfold iblk
  rw [View.read_apply]
  show V m c main_v21 _ = V m c main_v21 y
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 1 + 1 * (y 1).val = (y 1).val; rw [e1]; omega

/-! ## What point `t` writes back -/

/-- Lane `q` of the block the body leaves at point `t` is `GP` at padded position `32768 t + q`. -/
theorem out_blk (c : Dev nD) (t : Fin cfg0.N) (q : Fin 32768) :
    out0_11 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (ix2 0 q)
      = GP m c (ix2 0 ⟨t.val * 32768 + q.val, pos_lt t q⟩) := by
  refine (Body.out_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) q).trans ?_
  rw [feat_blk m c t q, blk3_eq m c t, blk4_eq m c t, blk5_eq m c t, blk6_eq m c t, blk7_eq m c t, blk8_eq m c t,
    blk9_eq m c t, blk10_eq m c t]
  rfl

/-- Lane `q` of the output window's block at point `t` is padded position `32768 t + q` of the output row. -/
theorem emb11 (t : Fin cfg0.N) (q : Fin 32768) :
    ((cfg0.win 11).blk t).view.emb (ix2 (0 : Fin 1) q) = ix2 (0 : Fin 1) ⟨t.val * 32768 + q.val, pos_lt t q⟩ := by
  obtain ⟨-, -, -, -, -, -, e0, e1⟩ := idx_stream t
  funext a
  apply Fin.ext
  match a with
  | ⟨0, _⟩ => show win0_11.index t (0 : Fin 2) * 1 + 1 * 0 = 0; rw [e0]
  | ⟨1, _⟩ => show win0_11.index t (1 : Fin 2) * 32768 + 1 * q.val = t.val * 32768 + q.val; rw [e1]; omega

/-- The same at a block index `y`: the block's row coordinate is `0`, its lane `y 1`. -/
theorem out_lane (c : Dev nD) (t : Fin cfg0.N) (y : S1x32768.Idx) :
    out0_11 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) y
      = GP m c (((cfg0.win 11).blk t).view.emb y) := by
  obtain ⟨z, q, rfl⟩ : ∃ (z : Fin 1) (q : Fin 32768), y = ix2 z q := ⟨y 0, y 1, eq_ix2 y⟩
  obtain rfl : z = 0 := Subsingleton.elim _ _
  exact (out_blk m c t q).trans (congrArg (GP m c) (emb11 t q).symm)

/-- WHAT POINT `t` WRITES BACK is block `t` of `GP`. -/
theorem flushed_eq (c : Dev nD) (t : Fin cfg0.N) :
    (dats m 0 c).flushed 11 t = ((cfg0.win 11).blk t).view.read (Elt Ideal) (GP m c) := by
  show (cfg0.win 11).cut (grid0.coords t) ((dats m 0 c).after 11 t) = _
  rw [after0_11]
  funext y
  show out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) y
    = GP m c (((cfg0.win 11).blk t).view.emb y)
  exact out_lane m c t y

/-! ## The 98 blocks tile the row -/

theorem cover (i : S1x3211264.Idx) :
    ∃ t : Fin cfg0.N, (cfg0.win 11).flush t = true ∧ i ∈ ((cfg0.win 11).blk t).view.set := by
  have hi0 : (i 0).val < 1 := idx2_lt0 i
  have hi1 : (i 1).val < 3211264 := idx2_lt1 i
  have hN : cfg0.N = 98 := N_0
  obtain ⟨t, ht⟩ : ∃ t : Fin cfg0.N, t.val = (i 1).val / 32768 := ⟨⟨(i 1).val / 32768, by omega⟩, rfl⟩
  obtain ⟨-, -, -, -, -, -, e0, e1⟩ := idx_stream t
  refine ⟨t, flush0_11 t, ?_⟩
  show i ∈ ((View.whole main_v22).slice (win0_11.rect t)).set
  rw [View.set_slice_whole, Rect.mem_set_unit]
  intro a
  match a with
  | ⟨0, _⟩ =>
    show win0_11.index t (0 : Fin 2) * 1 ≤ (i 0).val ∧ (i 0).val < win0_11.index t (0 : Fin 2) * 1 + 1
    rw [e0]; omega
  | ⟨1, _⟩ =>
    show win0_11.index t (1 : Fin 2) * 32768 ≤ (i 1).val ∧ (i 1).val < win0_11.index t (1 : Fin 2) * 32768 + 32768
    rw [e1, ht]; omega

/-- THE OUTPUT ROW after the region: `GP`. -/
theorem final (c : Dev nD) : (dats m 0 c).arrAt 11 cfg0.N = GP m c :=
  (dats m 0 c).arrAt_eq_of_cover 11 (GP m c) (fun t _ => flushed_eq m c t) cover

end Cert.KernelIdeal.Tile

end
-- ==== Proof.Tail.lean ====
/-
  The host tail: the first 3200000 lanes of the output row, stood up as a column.
-/
import proofs.«413811_j63282048139713_3_alg».proof.Proof.Tile
import Idealize.ShloMosaic.Lib.StableHlo.Run
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.ShloMosaic.StableHlo
open Idealize.ShloMosaic.ValueIdx Cert.MlpSpec Cert.KernelIdeal.Tile

variable (m : (ℓ : Loc nD τ sig) → Buf (Elt Ideal) ℓ)

/-- The output row as the host tail finds it. -/
abbrev rowAfter (c : Dev nD) : S1x3211264.Idx → EReal :=
  Pipeline.withArrays spec0 c (V0 m c) (fun w => (dats m 0 c).arrAt w cfg0.N) (Proc.devRef .tc (Pipeline.arrRef spec0 (11 : Fin 12)))

/-- The result buffer is the tail's two operations applied to that row: a slice of the first 3200000 lanes,
    then a reshape to a column. -/
theorem tail_term (c : Dev nD) :
    (Pipeline.afterTail₀ cfgs (dats m) 0 (V0 m) [hostOps1] c main_v24 : S3200000x1.Idx → EReal)
      = shapeCast S3200000x1 (extractStridedSlice S1x3200000 ![0, 0] (rowAfter m c) slices_S1x3211264_S1x3200000_0_0)
          shapeCasts_S1x3200000_S3200000x1 := by
  unfold Pipeline.afterTail₀
  show StableHlo.after hostOps1 _ (Proc.devRef .tc main_v24) = _
  after_results
  rfl

/-- The row the tail finds is the region's output row. -/
theorem rowAfter_eq (c : Dev nD) : rowAfter m c = GP m c :=
  (Pipeline.withArrays_arr spec0 launch0.win.arr_inj c (V0 m c) (fun w => (dats m 0 c).arrAt w cfg0.N) 11).trans (final m c)

/-- The result column: entry `(e, 0)` is the output row at padded position `e`. -/
theorem tail_eq (c : Dev nD) :
    (Pipeline.afterTail₀ cfgs (dats m) 0 (V0 m) [hostOps1] c main_v24 : S3200000x1.Idx → EReal)
      = fun i => GP m c (ix2 0 ⟨(i 0).val, by have := idx2_lt0 i; omega⟩) := by
  refine (tail_term m c).trans ?_
  funext i
  have hi0 : (i 0).val < 3200000 := idx2_lt0 i
  have hi1 : (i 1).val < 1 := idx2_lt1 i
  have e1 : shapeCast S3200000x1 (extractStridedSlice S1x3200000 ![0, 0] (rowAfter m c) slices_S1x3211264_S1x3200000_0_0)
        shapeCasts_S1x3200000_S3200000x1 i
      = extractStridedSlice S1x3200000 ![0, 0] (rowAfter m c) slices_S1x3211264_S1x3200000_0_0
          (ix2 (0 : Fin 1) ⟨(i 0).val, hi0⟩) :=
    shapeCast_apply _ shapeCasts_S1x3200000_S3200000x1 i (ix2 (0 : Fin 1) ⟨(i 0).val, hi0⟩) (by
      rewrite [Shape.rowMajor_val_two, Shape.rowMajor_val_two]
      show 0 * 3200000 + (i 0).val = (i 0).val * 1 + (i 1).val
      omega)
  have e2 : extractStridedSlice S1x3200000 ![0, 0] (rowAfter m c) slices_S1x3211264_S1x3200000_0_0
        (ix2 (0 : Fin 1) ⟨(i 0).val, hi0⟩)
      = rowAfter m c (ix2 (0 : Fin 1) ⟨(i 0).val, by omega⟩) :=
    extractStridedSlice_apply ![0, 0] (rowAfter m c) slices_S1x3211264_S1x3200000_0_0 (ix2 (0 : Fin 1) ⟨(i 0).val, hi0⟩)
      (ix2 (0 : Fin 1) ⟨(i 0).val, by omega⟩) (fun a => match a with
        | ⟨0, _⟩ => by show 0 = 0 + 0; rfl
        | ⟨1, _⟩ => by show (i 0).val = 0 + (i 0).val; omega)
  exact e1.trans (e2.trans (congrFun (rowAfter_eq m c) _))

end Cert.KernelIdeal.Tail

end
-- ==== Proof.HostPrefix.lean ====
/-
  What the tiled formulation's region finds in its eleven input arrays, as functions of the nine arguments.

  Before the region the program gathers the two node values of every edge, pads the 3200000 edges with
  zeros to 3211264 (98 tiles of 32768), lays the edge attributes out attribute-major, and transposes or
  reshapes the weights. Under the index range of the precondition the guarded gather never takes its
  fill value, so every array here is a plain re-indexing of an argument (or zero, in the padding).
-/
import proofs.«413811_j63282048139713_3_alg».proof.Proof.Gen.KernelIdeal.Frame
import proofs.«413811_j63282048139713_3_alg».proof.Proof.Spec
import proofs.«413811_j63282048139713_3_alg».proof.Proof.PreRange
import proofs.«413811_j63282048139713_3_alg».proof.Proof.Gen.Pre_finite_inputs
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.ValueIdx
import Idealize.ShloMosaic.Lib.KernelVsHost

noncomputable section

namespace Cert.KernelIdeal.HostPrefix

open Cert.KernelIdeal Cert.KernelIdeal.Gen Idealize.ShloMosaic Idealize.ShloMosaic.TcCoe Idealize.ShloMosaic.ValueIdx Cert.MlpSpec

variable (m : (ℓ : Loc nD τ sig) → Buf (Elt Ideal) ℓ)

/-- The nine argument arrays on core `c`, at their literal types. -/
abbrev A0 (c : Dev nD) : FVec Ideal S100000x1 .f32 := m ((c : Thread nD τ).loc main_arg0)
abbrev A1 (c : Dev nD) : FVec Ideal S3200000x3 .f32 := m ((c : Thread nD τ).loc main_arg1)
abbrev A2 (c : Dev nD) : IVec S2x3200000 32 := m ((c : Thread nD τ).loc main_arg2)
abbrev A3 (c : Dev nD) : FVec Ideal S5x50 .f32 := m ((c : Thread nD τ).loc main_arg3)
abbrev A4 (c : Dev nD) : FVec Ideal S50 .f32 := m ((c : Thread nD τ).loc main_arg4)
abbrev A5 (c : Dev nD) : FVec Ideal S50x50 .f32 := m ((c : Thread nD τ).loc main_arg5)
abbrev A6 (c : Dev nD) : FVec Ideal S50 .f32 := m ((c : Thread nD τ).loc main_arg6)
abbrev A7 (c : Dev nD) : FVec Ideal S50x1 .f32 := m ((c : Thread nD τ).loc main_arg7)
abbrev A8 (c : Dev nD) : FVec Ideal S1 .f32 := m ((c : Thread nD τ).loc main_arg8)

/-- The host's padding value, the integer zero converted, is the real zero. -/
theorem padValue_eq (j : S_.Idx) : (sitofp (F := Ideal) .f32 (constantI S_ 32 0#32) : S_.Idx → EReal) j = 0 := by
  show ((((0#32 : BitVec 32).toInt : ℤ) : ℝ) : EReal) = 0
  simp

/-! ## The two gathered rows

Each is the node table read at one row of the index array: the row is wrapped entry by entry, laid out as
a column of start indices, tested against the table's bounds, gathered with clamping, and the result kept
where the test passed. For indices in range the test passes everywhere, so the row is the table at the
wrapped, clamped index; the 11264 padding entries are zero. -/

/-- The rank-1 index at a coordinate, built either way. -/
theorem ofFin_eq_ix1 {n : Nat} (k : Fin n) : Shape.Idx.ofFin k = ix1 k := by
  funext a
  match a with
  | ⟨0, _⟩ => exact Fin.ext rfl

/-- An and-fold from 1 over bits that are all 1 is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    have h1 : IntOp.andi (1#1 : BitVec 1) 1#1 = 1#1 := by decide
    rw [List.foldl_cons, hf a (List.mem_cons.2 (Or.inl rfl)), h1]
    exact ih fun n hn => hf n (List.mem_cons.2 (Or.inr hn))

/-- Row off 0 of the index array as a vector: the slice, then the reshape. -/
abbrev rowV (c : Dev nD) (off : Fin 2 → Nat) (hs : S2x3200000.Slices off S1x3200000) : IVec S3200000 32 :=
  shapeCast S3200000 (extractStridedSlice S1x3200000 off (A2 m c) hs) shapeCasts_S1x3200000_S3200000

/-- The node table as a vector. -/
abbrev tableV (c : Dev nD) : S100000.Idx → EReal := shapeCast S100000 (A0 m c) shapeCasts_S100000x1_S100000

/-- A row of indices wrapped entry by entry. -/
abbrev wrapV (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- The wrapped row as a column of start indices. -/
abbrev colV (v : IVec S3200000 32) : IVec S3200000x1 32 :=
  broadcastInDim S3200000x1 ![0] bcast_S3200000_S3200000x1_0 (wrapV v)

/-- The bounds test of the guarded gather, and-reduced over the one entry of each row of the column. -/
abbrev maskV (v : IVec S3200000 32) : IVec S3200000 1 :=
  Host.reduce IntOp.andi
    (andi (cmpi .sge (colV v) (broadcastInDim S3200000x1 ![] bcast_S_S3200000x1 (constantI S_ 32 0#32)))
      (cmpi .sle (colV v) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The guarded gather of the table x at the row v. -/
abbrev takeV (x : S100000.Idx → EReal) (v : IVec S3200000 32) : S3200000.Idx → EReal :=
  select (maskV v) (Host.gather gather_S100000_S3200000x1_S3200000_n_0_n_n_0_1_1 x (colV v))
    (broadcastInDim S3200000 ![] bcast_S_S3200000 (constant (F := Ideal) S_ .f32 0x7FC00000#32))

/-- The gathered row padded with zeros to 3211264 entries and laid out as one row. -/
abbrev paddedRow (x : S100000.Idx → EReal) (v : IVec S3200000 32) : S1x3211264.Idx → EReal :=
  shapeCast S1x3211264
    (pad S3211264 ![0] ![11264] ![0] (takeV x v) (sitofp (F := Ideal) .f32 (constantI S_ 32 0#32))
      pads_S3200000_S3211264_0112640 h_S_)
    shapeCasts_S3211264_S1x3211264

section Stretches

open Idealize.ShloMosaic.StableHlo

/-! ## The host prefix, one stretch at a time

The contents at the region's entry are the eleven stretches applied in order. Each stretch is read over
an ARBITRARY incoming valuation `W`: what it writes as a term of what it reads, and that it leaves every
other buffer alone. -/

theorem after_append' (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- A buffer that no operation of a stretch writes passes through it. -/
local macro "passes" : tactic => `(tactic|
  (refine StableHlo.after_of_forall_not_mem _ _ (List.forall_iff_forall_mem.mp ?_)
   simp only [hostOps0, hostOps0_1, hostOps0_2, hostOps0_3, hostOps0_4, hostOps0_5, hostOps0_6, hostOps0_7, hostOps0_8, hostOps0_9, hostOps0_10, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

variable (W : Valuation τ sig (Elt Ideal))

/-- A value carried into a typed buffer and read back is the value. -/
theorem ofBuf_toBuf {T : BufTy} (x : TRef sig T) (v : T.Contents (Elt Ideal)) : x.ofBuf (x.toBuf v) = v := by
  obtain ⟨r, h, _, _⟩ := x
  subst h
  rfl

/-- Reads what a stretch writes at one buffer: every operation's result in one pass, each carried-and-read-back
    value by `ofBuf_toBuf`, the remaining transports along true type equations by `cast_eq`. -/
local macro "reads" : tactic => `(tactic|
  (dsimp only [hostOps0, hostOps0_1, hostOps0_2, hostOps0_3, hostOps0_4, hostOps0_5, hostOps0_6, hostOps0_7, hostOps0_8, hostOps0_9, hostOps0_10, TRef.nullary, TRef.unary, TRef.binary, TRef.ternary, TRef.of]
   after_results_simp
   try simp only [ofBuf_toBuf]
   try (first | ((simp only [cast_eq]) <;> rfl) | rfl)))

/-- The first stretch lays the node table and row 0 of the indices out as vectors. -/
theorem s0_v0 : (StableHlo.after hostOps0 W (Proc.devRef .tc main_v0) : S100000.Idx → EReal)
    = shapeCast S100000 (W (Proc.devRef .tc main_arg0) : S100000x1.Idx → EReal) shapeCasts_S100000x1_S100000 := by reads

theorem s0_v2 : (StableHlo.after hostOps0 W (Proc.devRef .tc main_v2) : IVec S3200000 32)
    = shapeCast S3200000 (extractStridedSlice S1x3200000 ![0, 0] (W (Proc.devRef .tc main_arg2) : IVec S2x3200000 32)
        slices_S2x3200000_S1x3200000_0_0) shapeCasts_S1x3200000_S3200000 := by reads

set_option maxHeartbeats 1600000 in
set_option maxRecDepth 16384 in
/-- The first guarded gather. -/
theorem s1_v3 : (StableHlo.after hostOps0_1 W (Proc.devRef .tc main_v3) : S3200000.Idx → EReal)
    = takeV (W (Proc.devRef .tc main_v0)) (W (Proc.devRef .tc main_v2)) := by reads

/-- Row 1 of the indices as a vector. -/
theorem s2_v5 : (StableHlo.after hostOps0_2 W (Proc.devRef .tc main_v5) : IVec S3200000 32)
    = shapeCast S3200000 (extractStridedSlice S1x3200000 ![1, 0] (W (Proc.devRef .tc main_arg2) : IVec S2x3200000 32)
        slices_S2x3200000_S1x3200000_1_0) shapeCasts_S1x3200000_S3200000 := by reads

set_option maxHeartbeats 1600000 in
set_option maxRecDepth 16384 in
/-- The second guarded gather. -/
theorem s3_v6 : (StableHlo.after hostOps0_3 W (Proc.devRef .tc main_v6) : S3200000.Idx → EReal)
    = takeV (W (Proc.devRef .tc main_v0)) (W (Proc.devRef .tc main_v5)) := by reads

/-- The integer zero that the padding converts. -/
theorem s4_c : (StableHlo.after hostOps0_4 W (Proc.devRef .tc main_c) : IVec S_ 32) = constantI S_ 32 0#32 := by reads

theorem s6_c0 : (StableHlo.after hostOps0_6 W (Proc.devRef .tc main_c_0) : IVec S_ 32) = constantI S_ 32 0#32 := by reads

/-- The two paddings. -/
theorem s5_v8 : (StableHlo.after hostOps0_5 W (Proc.devRef .tc main_v8) : S3211264.Idx → EReal)
    = pad S3211264 ![0] ![11264] ![0] (W (Proc.devRef .tc main_v3) : S3200000.Idx → EReal)
        (sitofp (F := Ideal) .f32 (W (Proc.devRef .tc main_c) : IVec S_ 32)) pads_S3200000_S3211264_0112640 h_S_ := by reads

theorem s7_v9 : (StableHlo.after hostOps0_7 W (Proc.devRef .tc main_v9) : S3211264.Idx → EReal)
    = pad S3211264 ![0] ![11264] ![0] (W (Proc.devRef .tc main_v6) : S3200000.Idx → EReal)
        (sitofp (F := Ideal) .f32 (W (Proc.devRef .tc main_c_0) : IVec S_ 32)) pads_S3200000_S3211264_0112640 h_S_ := by reads

/-- The two rows laid out as [1, 3211264]. -/
theorem s10_v11 : (StableHlo.after hostOps0_10 W (Proc.devRef .tc main_v11) : S1x3211264.Idx → EReal)
    = shapeCast S1x3211264 (W (Proc.devRef .tc main_v8) : S3211264.Idx → EReal) shapeCasts_S3211264_S1x3211264 := by reads

theorem s10_v12 : (StableHlo.after hostOps0_10 W (Proc.devRef .tc main_v12) : S1x3211264.Idx → EReal)
    = shapeCast S1x3211264 (W (Proc.devRef .tc main_v9) : S3211264.Idx → EReal) shapeCasts_S3211264_S1x3211264 := by reads

/-! ### Buffers a stretch leaves alone -/

theorem k9_v8 : StableHlo.after hostOps0_9 W (Proc.devRef .tc main_v8) = W (Proc.devRef .tc main_v8) := by passes
theorem k8_v8 : StableHlo.after hostOps0_8 W (Proc.devRef .tc main_v8) = W (Proc.devRef .tc main_v8) := by passes
theorem k7_v8 : StableHlo.after hostOps0_7 W (Proc.devRef .tc main_v8) = W (Proc.devRef .tc main_v8) := by passes
theorem k6_v8 : StableHlo.after hostOps0_6 W (Proc.devRef .tc main_v8) = W (Proc.devRef .tc main_v8) := by passes
theorem k4_v3 : StableHlo.after hostOps0_4 W (Proc.devRef .tc main_v3) = W (Proc.devRef .tc main_v3) := by passes
theorem k3_v3 : StableHlo.after hostOps0_3 W (Proc.devRef .tc main_v3) = W (Proc.devRef .tc main_v3) := by passes
theorem k2_v3 : StableHlo.after hostOps0_2 W (Proc.devRef .tc main_v3) = W (Proc.devRef .tc main_v3) := by passes
theorem k9_v9 : StableHlo.after hostOps0_9 W (Proc.devRef .tc main_v9) = W (Proc.devRef .tc main_v9) := by passes
theorem k8_v9 : StableHlo.after hostOps0_8 W (Proc.devRef .tc main_v9) = W (Proc.devRef .tc main_v9) := by passes
theorem k6_v6 : StableHlo.after hostOps0_6 W (Proc.devRef .tc main_v6) = W (Proc.devRef .tc main_v6) := by passes
theorem k5_v6 : StableHlo.after hostOps0_5 W (Proc.devRef .tc main_v6) = W (Proc.devRef .tc main_v6) := by passes
theorem k4_v6 : StableHlo.after hostOps0_4 W (Proc.devRef .tc main_v6) = W (Proc.devRef .tc main_v6) := by passes
theorem k2_v0 : StableHlo.after hostOps0_2 W (Proc.devRef .tc main_v0) = W (Proc.devRef .tc main_v0) := by passes
theorem k1_v0 : StableHlo.after hostOps0_1 W (Proc.devRef .tc main_v0) = W (Proc.devRef .tc main_v0) := by passes
theorem k1_arg2 : StableHlo.after hostOps0_1 W (Proc.devRef .tc main_arg2) = W (Proc.devRef .tc main_arg2) := by passes
theorem k0_arg2 : StableHlo.after hostOps0 W (Proc.devRef .tc main_arg2) = W (Proc.devRef .tc main_arg2) := by passes

end Stretches

/-! ### The two rows at the region's entry -/

/-- What the host leaves in the source row's buffer, as one term over the arguments. -/
theorem v11_term (c : Dev nD) :
    (V m c main_v11 : S1x3211264.Idx → EReal) =
      paddedRow (tableV m c) (rowV m c ![0, 0] slices_S2x3200000_S1x3200000_0_0) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v11) = _
  simp only [List.flatten_cons, List.flatten_nil, List.append_nil, after_append']
  rw [s10_v11, k9_v8, k8_v8, k7_v8, k6_v8, s5_v8, s4_c, k4_v3, k3_v3, k2_v3, s1_v3, s0_v0, s0_v2]

/-- What the host leaves in the target row's buffer. -/
theorem v12_term (c : Dev nD) :
    (V m c main_v12 : S1x3211264.Idx → EReal) =
      paddedRow (tableV m c) (rowV m c ![1, 0] slices_S2x3200000_S1x3200000_1_0) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v12) = _
  simp only [List.flatten_cons, List.flatten_nil, List.append_nil, after_append']
  rw [s10_v12, k9_v9, k8_v9, s7_v9, s6_c0, k6_v6, k5_v6, k4_v6, s3_v6, k2_v0, k1_v0, s0_v0, s2_v5, k1_arg2, k0_arg2]

/-- Row r of the index array, entry by entry. -/
theorem rowV_apply (c : Dev nD) (off : Fin 2 → Nat) (hs : S2x3200000.Slices off S1x3200000) (r : Fin 2)
    (h0 : off 0 = r.val) (h1 : off 1 = 0) (j : S3200000.Idx) :
    rowV m c off hs j = A2 m c (ix2 r ⟨(j 0).val, (j 0).isLt⟩) := by
  refine (shapeCast_apply _ shapeCasts_S1x3200000_S3200000 j (ix2 (0 : Fin 1) ⟨(j 0).val, (j 0).isLt⟩) ?_).trans
    (extractStridedSlice_apply off (A2 m c) hs _ (ix2 r ⟨(j 0).val, (j 0).isLt⟩) fun a => ?_)
  · rw [Shape.rowMajor_val_two, Shape.rowMajor_val_one]
    show 0 * 3200000 + (j 0).val = (j 0).val
    omega
  · match a with
    | ⟨0, _⟩ => show r.val = off 0 + 0; omega
    | ⟨1, _⟩ => show (j 0).val = off 1 + (j 0).val; omega

/-- The table as a vector, entry by entry. -/
theorem tableV_apply (c : Dev nD) (n : Fin 100000) : tableV m c (ix1 n) = A0 m c (ix2 n 0) :=
  shapeCast_apply (A0 m c) shapeCasts_S100000x1_S100000 (ix1 n) (ix2 n (0 : Fin 1)) (by
    rw [Shape.rowMajor_val_two, Shape.rowMajor_val_one]
    show n.val * 1 + 0 = n.val
    omega)

/-- The column of start indices holds, in row p, the wrapped entry p of the row. -/
theorem wrapV_apply (v : IVec S3200000 32) (j : S3200000.Idx) : wrapV v j = wrap (v j) := by
  dsimp only [wrapV, wrap, select, cmpi, addi, broadcastInDim, constantI]

theorem colV_ixP (v : IVec S3200000 32) (p : Fin 3200000) :
    colV v (StableHlo.Predicate.ixP p) = wrap (v (ix1 p)) := by
  show broadcastInDim S3200000x1 ![0] bcast_S3200000_S3200000x1_0 (wrapV v) (StableHlo.Predicate.ixP p) = _
  rw [StableHlo.Predicate.bcast_col1, ofFin_eq_ix1, wrapV_apply]

/-- An index of a one-column array is its row's index. -/
theorem eq_ixP (j : S3200000x1.Idx) : j = StableHlo.Predicate.ixP ⟨(j 0).val, idx2_lt0 j⟩ := by
  funext a
  match a with
  | ⟨0, _⟩ => rfl
  | ⟨1, _⟩ =>
    refine Fin.ext ?_
    show (j 1).val = 0
    have := idx2_lt1 j
    omega

theorem colV_apply (v : IVec S3200000 32) (j : S3200000x1.Idx) :
    colV v j = wrap (v (ix1 ⟨(j 0).val, idx2_lt0 j⟩)) :=
  (congrArg (colV v) (eq_ixP j)).trans (colV_ixP v _)

/-- For indices in range the bounds test passes in every row. -/
theorem maskV_apply (v : IVec S3200000 32) (hv : ∀ e, Cert.PreRange.InRange (v e)) (j : S3200000.Idx) :
    maskV v j = 1#1 := by
  show Host.reduce IntOp.andi _ _ reducesTo_S3200000x1_S3200000_d1 h_S_ j = 1#1
  rw [Host.reduce_eq_foldl]
  refine foldl_andi_one _ _ fun n _ => ?_
  obtain ⟨t0, t1⟩ := Cert.PreRange.wrap_tests (hv (ix1 ⟨(n 0).val, idx2_lt0 n⟩))
  show IntOp.andi (IntOp.cmpi .sge (colV v n) 0#32) (IntOp.cmpi .sle (colV v n) 99999#32) = 1#1
  rw [colV_apply, t0, t1]
  decide

/-- The take-shaped gather at entry e, with both indices written by coordinates. -/
theorem gather_ix1 (x : S100000.Idx → EReal) (idx : IVec S3200000x1 32) (e : Fin 3200000) :
    Host.gather gather_S100000_S3200000x1_S3200000_n_0_n_n_0_1_1 x idx (ix1 e)
      = x (ix1 ⟨min (idx (StableHlo.Predicate.ixP e)).toInt.toNat (100000 - 1), by omega⟩) := by
  have h := StableHlo.Predicate.gather_take gather_S100000_S3200000x1_S3200000_n_0_n_n_0_1_1 rfl rfl rfl rfl x idx e
    (by decide)
  rwa [ofFin_eq_ix1, ofFin_eq_ix1] at h

/-- For indices in range the guarded gather reads the table at the wrapped, clamped index. -/
theorem takeV_apply (x : S100000.Idx → EReal) (v : IVec S3200000 32) (hv : ∀ e, Cert.PreRange.InRange (v e))
    (e : Fin 3200000) : takeV x v (ix1 e) = x (ix1 (nodeOf (v (ix1 e)))) := by
  show Scalar.select (maskV v (ix1 e))
    (Host.gather gather_S100000_S3200000x1_S3200000_n_0_n_n_0_1_1 x (colV v) (ix1 e)) _ = _
  rw [maskV_apply v hv, select_one, gather_ix1]
  refine congrArg x (congrArg ix1 (Fin.ext ?_))
  show min (colV v (StableHlo.Predicate.ixP e)).toInt.toNat (100000 - 1) = min (wrap (v (ix1 e))).toInt.toNat 99999
  rw [colV_ixP]

/-- The padded row, entry by entry. -/
theorem paddedRow_apply (x : S100000.Idx → EReal) (v : IVec S3200000 32) (hv : ∀ e, Cert.PreRange.InRange (v e))
    (i : S1x3211264.Idx) :
    paddedRow x v i = if h : (i 1).val < 3200000 then x (ix1 (nodeOf (v (ix1 ⟨(i 1).val, h⟩)))) else 0 := by
  have e1 : paddedRow x v i = pad S3211264 ![0] ![11264] ![0] (takeV x v) (sitofp (F := Ideal) .f32 (constantI S_ 32 0#32))
      pads_S3200000_S3211264_0112640 h_S_ (ix1 ⟨(i 1).val, idx2_lt1 i⟩) :=
    shapeCast_apply _ shapeCasts_S3211264_S1x3211264 i (ix1 ⟨(i 1).val, idx2_lt1 i⟩) (by
      rw [Shape.rowMajor_val_one, Shape.rowMajor_val_two]
      show (i 1).val = (i 0).val * 3211264 + (i 1).val
      have := idx2_lt0 i
      omega)
  rw [e1]
  by_cases h : (i 1).val < 3200000
  · rw [dif_pos h]
    refine (pad_apply_of_inside (s := S3200000) (t := S3211264) ![0] ![11264] ![0] (takeV x v) _
      pads_S3200000_S3211264_0112640 h_S_ _ (ix1 ⟨(i 1).val, h⟩) fun a => ?_).trans (takeV_apply x v hv _)
    match a with
    | ⟨0, _⟩ => show (i 1).val = 0 + (i 1).val * (0 + 1); omega
  · rw [dif_neg h]
    refine (pad_apply_of_not_inside (s := S3200000) (t := S3211264) ![0] ![11264] ![0] (takeV x v) _
      pads_S3200000_S3211264_0112640 h_S_ _ (0 : Fin 1) ?_).trans (padValue_eq _)
    show ¬(0 ≤ (i 1).val ∧ ((i 1).val - 0) % (0 + 1) = 0 ∧ ((i 1).val - 0) / (0 + 1) < 3200000)
    omega

/-- The padded row gathered at row r of an index array in range: the table at each edge's node, then zeros. -/
theorem gathered_eq (c : Dev nD) (hr : ∀ i, Cert.PreRange.InRange (A2 m c i)) (r : Fin 2) (off : Fin 2 → Nat)
    (hs : S2x3200000.Slices off S1x3200000) (h0 : off 0 = r.val) (h1 : off 1 = 0) :
    paddedRow (tableV m c) (rowV m c off hs) = fun i =>
      if h : (i 1).val < 3200000 then A0 m c (ix2 (nodeOf (A2 m c (ix2 r ⟨(i 1).val, h⟩))) 0) else 0 := by
  funext i
  have hv : ∀ e, Cert.PreRange.InRange (rowV m c off hs e) := fun e => by
    rw [rowV_apply m c off hs r h0 h1]
    exact hr _
  rw [paddedRow_apply _ _ hv i]
  by_cases h : (i 1).val < 3200000
  · rw [dif_pos h, dif_pos h]
    exact (congrArg (fun w => tableV m c (ix1 (nodeOf w))) (rowV_apply m c off hs r h0 h1 _)).trans (tableV_apply m c _)
  · rw [dif_neg h, dif_neg h]

/-- The padded row of source-node values: edge e < 3200000 holds the node table at the position its
    source index reads, the padding holds zero. -/
theorem xs_eq (c : Dev nD) (hr : ∀ i, Cert.PreRange.InRange (A2 m c i)) :
    (V m c main_v11 : S1x3211264.Idx → EReal) = fun i =>
      if h : (i 1).val < 3200000 then A0 m c (ix2 (nodeOf (A2 m c (ix2 0 ⟨(i 1).val, h⟩))) 0) else 0 := by
  rw [v11_term]
  exact gathered_eq m c hr 0 _ _ rfl rfl

/-- The padded row of target-node values. -/
theorem xt_eq (c : Dev nD) (hr : ∀ i, Cert.PreRange.InRange (A2 m c i)) :
    (V m c main_v12 : S1x3211264.Idx → EReal) = fun i =>
      if h : (i 1).val < 3200000 then A0 m c (ix2 (nodeOf (A2 m c (ix2 1 ⟨(i 1).val, h⟩))) 0) else 0 := by
  rw [v12_term]
  exact gathered_eq m c hr 1 _ _ rfl rfl

/-! ## The edge attributes: transposed, then padded along the edge axis -/

theorem v10_term (c : Dev nD) :
    (V m c main_v10 : S3x3211264.Idx → EReal) =
      pad S3x3211264 ![0, 0] ![0, 11264] ![0, 0]
        (transpose S3x3200000 [1, 0] (A1 m c) transposes_S3200000x3_S3x3200000_1_0)
        (sitofp (F := Ideal) .f32 (constantI S_ 32 0#32)) pads_S3x3200000_S3x3211264_000_0112640 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results <;> rfl

/-- The edge attributes, attribute-major and padded. -/
theorem ea_eq (c : Dev nD) :
    (V m c main_v10 : S3x3211264.Idx → EReal) = fun i =>
      if h : (i 1).val < 3200000 then A1 m c (ix2 ⟨(i 1).val, h⟩ ⟨(i 0).val, idx2_lt0 i⟩) else 0 := by
  rw [v10_term]
  funext i
  by_cases h : (i 1).val < 3200000
  · rw [dif_pos h]
    refine (pad_apply_of_inside (s := S3x3200000) (t := S3x3211264) ![0, 0] ![0, 11264] ![0, 0] _ _
      pads_S3x3200000_S3x3211264_000_0112640 h_S_ i
      (ix2 ⟨(i 0).val, idx2_lt0 i⟩ ⟨(i 1).val, h⟩) fun a => ?_).trans
      (transpose_ix2_apply (A1 m c) transposes_S3200000x3_S3x3200000_1_0 _ _)
    match a with
    | ⟨0, _⟩ => show (i 0).val = 0 + (i 0).val * (0 + 1); omega
    | ⟨1, _⟩ => show (i 1).val = 0 + (i 1).val * (0 + 1); omega
  · rw [dif_neg h]
    refine (pad_apply_of_not_inside (s := S3x3200000) (t := S3x3211264) ![0, 0] ![0, 11264] ![0, 0] _ _
      pads_S3x3200000_S3x3211264_000_0112640 h_S_ i (1 : Fin 2) ?_).trans (padValue_eq _)
    show ¬(0 ≤ (i 1).val ∧ ((i 1).val - 0) % (0 + 1) = 0 ∧ ((i 1).val - 0) / (0 + 1) < 3200000)
    omega

/-! ## The weights and biases: transposes, column slices and reshapes of the arguments -/

/-- The first weight matrix transposed, as the host computes it once for its three slices. -/
abbrev W1T (c : Dev nD) : S50x5.Idx → EReal := transpose S50x5 [1, 0] (A3 m c) transposes_S5x50_S50x5_1_0

theorem v14_term (c : Dev nD) :
    (V m c main_v14 : S50x1.Idx → EReal) = extractStridedSlice S50x1 ![0, 0] (W1T m c) slices_S50x5_S50x1_0_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results

theorem v15_term (c : Dev nD) :
    (V m c main_v15 : S50x1.Idx → EReal) = extractStridedSlice S50x1 ![0, 1] (W1T m c) slices_S50x5_S50x1_0_1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results

theorem v16_term (c : Dev nD) :
    (V m c main_v16 : S50x3.Idx → EReal) = extractStridedSlice S50x3 ![0, 2] (W1T m c) slices_S50x5_S50x3_0_2 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results

theorem v17_term (c : Dev nD) :
    (V m c main_v17 : S50x1.Idx → EReal) = shapeCast S50x1 (A4 m c) shapeCasts_S50_S50x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

theorem v18_term (c : Dev nD) :
    (V m c main_v18 : S50x50.Idx → EReal) = transpose S50x50 [1, 0] (A5 m c) transposes_S50x50_S50x50_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results

theorem v19_term (c : Dev nD) :
    (V m c main_v19 : S50x1.Idx → EReal) = shapeCast S50x1 (A6 m c) shapeCasts_S50_S50x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

theorem v20_term (c : Dev nD) :
    (V m c main_v20 : S1x50.Idx → EReal) = transpose S1x50 [1, 0] (A7 m c) transposes_S50x1_S1x50_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results

theorem v21_term (c : Dev nD) :
    (V m c main_v21 : S1x1.Idx → EReal) = shapeCast S1x1 (A8 m c) shapeCasts_S1_S1x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

/-- The transposed first weight matrix at row j, column k is the matrix at (k, j). -/
theorem W1T_apply (c : Dev nD) (j : Fin 50) (k : Fin 5) : W1T m c (ix2 j k) = A3 m c (ix2 k j) :=
  transpose_ix2_apply (A3 m c) transposes_S5x50_S50x5_1_0 j k

/-- Row 0 of the first weight matrix, as a column. -/
theorem w1c0_eq (c : Dev nD) :
    (V m c main_v14 : S50x1.Idx → EReal) = fun i => A3 m c (ix2 0 ⟨(i 0).val, idx2_lt0 i⟩) := by
  rw [v14_term]
  funext i
  refine (extractStridedSlice_apply ![0, 0] (W1T m c) slices_S50x5_S50x1_0_0 i (ix2 ⟨(i 0).val, idx2_lt0 i⟩ (0 : Fin 5))
    fun a => ?_).trans (W1T_apply m c _ _)
  match a with
  | ⟨0, _⟩ => show (i 0).val = 0 + (i 0).val; omega
  | ⟨1, _⟩ => show 0 = 0 + (i 1).val; have := idx2_lt1 i; omega

/-- Row 1 of the first weight matrix, as a column. -/
theorem w1c1_eq (c : Dev nD) :
    (V m c main_v15 : S50x1.Idx → EReal) = fun i => A3 m c (ix2 1 ⟨(i 0).val, idx2_lt0 i⟩) := by
  rw [v15_term]
  funext i
  refine (extractStridedSlice_apply ![0, 1] (W1T m c) slices_S50x5_S50x1_0_1 i (ix2 ⟨(i 0).val, idx2_lt0 i⟩ (1 : Fin 5))
    fun a => ?_).trans (W1T_apply m c _ _)
  match a with
  | ⟨0, _⟩ => show (i 0).val = 0 + (i 0).val; omega
  | ⟨1, _⟩ => show 1 = 1 + (i 1).val; have := idx2_lt1 i; omega

/-- Rows 2, 3, 4 of the first weight matrix, transposed. -/
theorem w1ea_eq (c : Dev nD) :
    (V m c main_v16 : S50x3.Idx → EReal) = fun i =>
      A3 m c (ix2 ⟨(i 1).val + 2, by have := idx2_lt1 i; omega⟩ ⟨(i 0).val, idx2_lt0 i⟩) := by
  rw [v16_term]
  funext i
  refine (extractStridedSlice_apply ![0, 2] (W1T m c) slices_S50x5_S50x3_0_2 i
    (ix2 ⟨(i 0).val, idx2_lt0 i⟩ (⟨(i 1).val + 2, by have := idx2_lt1 i; omega⟩ : Fin 5)) fun a => ?_).trans (W1T_apply m c _ _)
  match a with
  | ⟨0, _⟩ => show (i 0).val = 0 + (i 0).val; omega
  | ⟨1, _⟩ => show (i 1).val + 2 = 2 + (i 1).val; omega

/-- The first bias, as a column. -/
theorem b1_eq (c : Dev nD) :
    (V m c main_v17 : S50x1.Idx → EReal) = fun i => A4 m c (ix1 ⟨(i 0).val, idx2_lt0 i⟩) := by
  rw [v17_term]
  funext i
  refine shapeCast_apply (A4 m c) shapeCasts_S50_S50x1 i (ix1 ⟨(i 0).val, idx2_lt0 i⟩) ?_
  rw [Shape.rowMajor_val_one, Shape.rowMajor_val_two]
  show (i 0).val = (i 0).val * 1 + (i 1).val
  have := idx2_lt1 i; omega

/-- The second weight matrix, transposed. -/
theorem w2t_eq (c : Dev nD) :
    (V m c main_v18 : S50x50.Idx → EReal) = fun i =>
      A5 m c (ix2 ⟨(i 1).val, idx2_lt1 i⟩ ⟨(i 0).val, idx2_lt0 i⟩) := by
  rw [v18_term]
  funext i
  exact transpose_apply [1, 0] (A5 m c) transposes_S50x50_S50x50_1_0 i (ix2 ⟨(i 1).val, idx2_lt1 i⟩ ⟨(i 0).val, idx2_lt0 i⟩)
    fun b => match b with | ⟨0, _⟩ => rfl | ⟨1, _⟩ => rfl

/-- The second bias, as a column. -/
theorem b2_eq (c : Dev nD) :
    (V m c main_v19 : S50x1.Idx → EReal) = fun i => A6 m c (ix1 ⟨(i 0).val, idx2_lt0 i⟩) := by
  rw [v19_term]
  funext i
  refine shapeCast_apply (A6 m c) shapeCasts_S50_S50x1 i (ix1 ⟨(i 0).val, idx2_lt0 i⟩) ?_
  rw [Shape.rowMajor_val_one, Shape.rowMajor_val_two]
  show (i 0).val = (i 0).val * 1 + (i 1).val
  have := idx2_lt1 i; omega

/-- The third weight matrix, transposed into a row. -/
theorem w3t_eq (c : Dev nD) :
    (V m c main_v20 : S1x50.Idx → EReal) = fun i => A7 m c (ix2 ⟨(i 1).val, idx2_lt1 i⟩ 0) := by
  rw [v20_term]
  funext i
  refine transpose_apply [1, 0] (A7 m c) transposes_S50x1_S1x50_1_0 i (ix2 ⟨(i 1).val, idx2_lt1 i⟩ (0 : Fin 1)) fun b => ?_
  match b with
  | ⟨0, _⟩ => show 0 = (i 0).val; have := idx2_lt0 i; omega
  | ⟨1, _⟩ => rfl

/-- The third bias, as a one-by-one array. -/
theorem b3_eq (c : Dev nD) :
    (V m c main_v21 : S1x1.Idx → EReal) = fun _ => A8 m c (ix1 0) := by
  rw [v21_term]
  funext i
  refine shapeCast_apply (A8 m c) shapeCasts_S1_S1x1 i (ix1 (0 : Fin 1)) ?_
  rw [Shape.rowMajor_val_one, Shape.rowMajor_val_two]
  show 0 = (i 0).val * 1 + (i 1).val
  have := idx2_lt0 i; have := idx2_lt1 i; omega

end Cert.KernelIdeal.HostPrefix

end
-- ==== Proof.KernelValue.lean ====
/-
  The tiled formulation's run, read: its result column is `MlpSpec.result` of the nine arguments.

  The output row holds, at padded position `p`, the perceptron (transposed arrangement) of the features
  the region finds there. For `p = e < 3200000` those features are edge `e`'s — the node table at the
  positions its two indices read, and its three attributes — and the resident blocks are the weights and
  biases re-laid; the two arrangements of the perceptron agree (`MlpSpec.outK_eq_outR`). The host tail
  keeps exactly those positions, as a column.
-/
import proofs.«413811_j63282048139713_3_alg».proof.Proof.Tail
import proofs.«413811_j63282048139713_3_alg».proof.Proof.HostPrefix

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.MlpSpec Cert.KernelIdeal.Tile Cert.KernelIdeal.Body Cert.KernelIdeal.HostPrefix

variable (m : (ℓ : Loc nD τ sig) → Buf (Elt Ideal) ℓ) (ρ : Dev nD → PrngReg)

theorem edge_lt (e : Fin 3200000) : e.val < 3211264 := by have := e.isLt; omega

/-- Below the padding, the features the region finds are the edge's. -/
theorem featP_eq (c : Dev nD) (hr : ∀ i, Cert.PreRange.InRange (A2 m c i)) (e : Fin 3200000) :
    featP m c ⟨e.val, edge_lt e⟩ = feat (A0 m c) (A1 m c) (A2 m c) e := by
  funext k
  match k with
  | ⟨0, _⟩ => exact (congrFun (xs_eq m c hr) (ix2 0 ⟨e.val, edge_lt e⟩)).trans (dif_pos e.isLt)
  | ⟨1, _⟩ => exact (congrFun (xt_eq m c hr) (ix2 0 ⟨e.val, edge_lt e⟩)).trans (dif_pos e.isLt)
  | ⟨2, _⟩ => exact (congrFun (ea_eq m c) (ix2 0 ⟨e.val, edge_lt e⟩)).trans (dif_pos e.isLt)
  | ⟨3, _⟩ => exact (congrFun (ea_eq m c) (ix2 1 ⟨e.val, edge_lt e⟩)).trans (dif_pos e.isLt)
  | ⟨4, _⟩ => exact (congrFun (ea_eq m c) (ix2 2 ⟨e.val, edge_lt e⟩)).trans (dif_pos e.isLt)

/-- The first layer's weights, re-laid, are the first weight matrix. -/
theorem w1_eq (c : Dev nD) : w1Of (B3 m c) (B4 m c) (B5 m c) = fun k j => A3 m c (ix2 k j) := by
  funext k j
  match k with
  | ⟨0, _⟩ => exact congrFun (w1c0_eq m c) (ix2 j 0)
  | ⟨1, _⟩ => exact congrFun (w1c1_eq m c) (ix2 j 0)
  | ⟨2, _⟩ => exact congrFun (w1ea_eq m c) (ix2 j 0)
  | ⟨3, _⟩ => exact congrFun (w1ea_eq m c) (ix2 j 1)
  | ⟨4, _⟩ => exact congrFun (w1ea_eq m c) (ix2 j 2)

/-- Below the padding the output row is the specified result. -/
theorem GP_eq (c : Dev nD) (hr : ∀ i, Cert.PreRange.InRange (A2 m c i)) (e : Fin 3200000) :
    GP m c (ix2 0 ⟨e.val, edge_lt e⟩)
      = result (A0 m c) (A1 m c) (A2 m c) (A3 m c) (A4 m c) (A5 m c) (A6 m c) (A7 m c) (A8 m c) (ix2 e 0) := by
  show outK (w1Of (B3 m c) (B4 m c) (B5 m c)) (fun j => B6 m c (ix2 j 0)) (fun k j => B7 m c (ix2 j k))
      (fun j => B8 m c (ix2 j 0)) (fun k _ => B9 m c (ix2 0 k)) (fun _ => B10 m c (ix2 0 0)) (featP m c ⟨e.val, edge_lt e⟩)
    = outR (fun k j => A3 m c (ix2 k j)) (fun j => A4 m c (ix1 j)) (fun k j => A5 m c (ix2 k j)) (fun j => A6 m c (ix1 j))
      (fun k j => A7 m c (ix2 k j)) (fun j => A8 m c (ix1 j)) (feat (A0 m c) (A1 m c) (A2 m c) e)
  rw [featP_eq m c hr e, w1_eq m c,
    show (fun j : Fin 50 => B6 m c (ix2 j 0)) = fun j => A4 m c (ix1 j) from funext fun j => congrFun (b1_eq m c) (ix2 j 0),
    show (fun (k j : Fin 50) => B7 m c (ix2 j k)) = fun k j => A5 m c (ix2 k j) from
      funext fun k => funext fun j => congrFun (w2t_eq m c) (ix2 j k),
    show (fun j : Fin 50 => B8 m c (ix2 j 0)) = fun j => A6 m c (ix1 j) from funext fun j => congrFun (b2_eq m c) (ix2 j 0),
    show (fun (k : Fin 50) (_ : Fin 1) => B9 m c (ix2 0 k)) = fun k j => A7 m c (ix2 k j) from
      funext fun k => funext fun j => by
        obtain rfl : j = 0 := Subsingleton.elim _ _
        exact congrFun (w3t_eq m c) (ix2 0 k),
    show (fun _ : Fin 1 => B10 m c (ix2 0 0)) = fun j => A8 m c (ix1 j) from funext fun j => by
        obtain rfl : j = 0 := Subsingleton.elim _ _
        exact congrFun (b3_eq m c) (ix2 0 0)]
  exact outK_eq_outR _ _ _ _ _ _ _

/-- THE RUN: every weakly fair execution ends with the result column at the specified result and the nine
    arguments unchanged. -/
theorem run (hr : ∀ c i, Cert.PreRange.InRange (A2 m c i)) :
    θ_run defs (onTc (τ := τ) (main (F := Ideal))) ⟨m, fun _ => 0, ρ⟩ fun r => ∀ c : Dev nD,
      r.2.mem ((c.tc : Thread nD τ).loc main_v24)
          = result (A0 m c) (A1 m c) (A2 m c) (A3 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v24 (Pipeline.mem_restRefs_of main_v24 (by decide) (by decide))).trans
        ((Tail.tail_eq m c).trans (funext fun i => by
          obtain ⟨e, z, rfl⟩ : ∃ (e : Fin 3200000) (z : Fin 1), i = ix2 e z := ⟨i 0, i 1, eq_ix2 i⟩
          obtain rfl : z = 0 := Subsingleton.elim _ _
          exact GP_eq m c (hr c) e)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KernelValue

end
-- ==== Proof.lean ====
/-
  Edge scores of a graph by a three-layer perceptron: two formulations are one function.

  For each of 3200000 edges both programs read a table of 100000 node values at the edge's two endpoint
  indices, join the two values with the edge's three attributes into five features, and apply
  `logistic (W3ᵀ relu (W2ᵀ relu (W1ᵀ f + b1) + b2) + b3)`.

  The plain formulation gathers, concatenates to [3200000, 5] and multiplies row vectors by the weight
  matrices. The tiled formulation works on the transposed problem: it gathers the two node values per
  edge, pads the edges to 98 tiles of 32768 lanes, and per tile forms the first layer as five rank-one
  updates, multiplies by the transposed weight matrices from the left, and keeps the first 3200000 lanes.
  On the extended reals the two differ only in the order of summands and factors (`MlpSpec.outK_eq_outR`:
  commutativity and associativity, no finiteness), in `1 / (1 + exp (−z))` being written out or not, and
  in how an index outside the table is treated: one gather clamps it, the other returns a fill value.
  The precondition's index range `−100000 ≤ v < 100000` (a position counted from the front or from the
  back) is exactly where both read the same table entry (`PreRange`, `HostPrefix`).

  `KernelValue.run` reads the tiled formulation's run (the region's blocks through `Tile`, the body at a
  lane through `Body`, the host operations around it through `HostPrefix` and `Tail`); `RefValue.result_eq`
  reads the plain one; both end at `MlpSpec.result` of the nine arguments.
-/
import proofs.«413811_j63282048139713_3_alg».proof.Defs
import proofs.«413811_j63282048139713_3_alg».proof.Proof.Gen.Kernel
import proofs.«413811_j63282048139713_3_alg».proof.Proof.Gen.Kernel.Skeleton
import proofs.«413811_j63282048139713_3_alg».proof.Proof.Gen.Kernel.Launch
import proofs.«413811_j63282048139713_3_alg».proof.Proof.Gen.Kernel.Points
import proofs.«413811_j63282048139713_3_alg».proof.Proof.Gen.Kernel.Frame
import proofs.«413811_j63282048139713_3_alg».proof.Proof.Gen.KernelIdeal
import proofs.«413811_j63282048139713_3_alg».proof.Proof.Gen.KernelIdeal.Skeleton
import proofs.«413811_j63282048139713_3_alg».proof.Proof.Gen.KernelIdeal.Launch
import proofs.«413811_j63282048139713_3_alg».proof.Proof.Gen.KernelIdeal.Points
import proofs.«413811_j63282048139713_3_alg».proof.Proof.Gen.KernelIdeal.Frame
import proofs.«413811_j63282048139713_3_alg».proof.Proof.Gen.ReferenceIdeal
import proofs.«413811_j63282048139713_3_alg».proof.Proof.Gen.ReferenceIdeal.Run
import proofs.«413811_j63282048139713_3_alg».proof.Proof.Gen.ReferenceIdeal.Read
import proofs.«413811_j63282048139713_3_alg».proof.Proof.Gen.Pre_finite_inputs
import proofs.«413811_j63282048139713_3_alg».proof.Proof.PreRange
import proofs.«413811_j63282048139713_3_alg».proof.Proof.RefValue
import proofs.«413811_j63282048139713_3_alg».proof.Proof.KernelValue
import Idealize.ShloMosaic.Adequacy
import Idealize.ShloMosaic.Init

noncomputable section

namespace Cert.Proof

open Idealize.ShloMosaic Idealize.SL.Sem Cert.KernelIdeal.HostPrefix

theorem frame_kernel : Cert.frame_Kernel := fun m ρ _ => Cert.Kernel.Gen.frame m ρ

theorem frame_kernelIdeal : Cert.frame_KernelIdeal := fun m ρ _ => Cert.KernelIdeal.Gen.frame m ρ

/-- The plain formulation has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at `MlpSpec.result` of arguments that agree; the index range comes from the precondition. -/
theorem algebraic : Cert.algebraic_KernelIdeal_ReferenceIdeal := by
  intro m ρ m' ρ' hpre hagree
  have hr : ∀ c i, Cert.PreRange.InRange (A2 m c i) := fun c i =>
    Cert.PreRange.inRange_of_pre _ _ _ _ _ _ _ _ _ (hpre c) i
  refine ⟨fun c => Cert.MlpSpec.result (A0 m c) (A1 m c) (A2 m c) (A3 m c) (A4 m c) (A5 m c) (A6 m c) (A7 m c) (A8 m c),
    Cert.KernelIdeal.KernelValue.run m ρ hr, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v38_eq _ _ _ _ _ _ _ _ _).trans
    (Cert.ReferenceIdeal.RefValue.result_eq _ _ _ _ _ _ _ _ _))).trans ?_
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
